-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 50257#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S32x1 : Shape := ⟨2, ![32, 1]⟩
abbrev S32x50257 : Shape := ⟨2, ![32, 50257]⟩
abbrev S32 : Shape := ⟨1, ![32]⟩

abbrev nBuf : Space → Nat
  | .hbm => 42
  | .vmem => 8
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .i1⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096x1, .i32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S32x1, .i32⟩
  | .local _ .vmem, ⟨1, _⟩ => ⟨S32x1, .i32⟩
  | .local _ .vmem, ⟨2, _⟩ => ⟨S32x1, .f32⟩
  | .local _ .vmem, ⟨3, _⟩ => ⟨S32x1, .f32⟩
  | .local _ .vmem, ⟨4, _⟩ => ⟨S32x50257, .f32⟩
  | .local _ .vmem, ⟨5, _⟩ => ⟨S32x50257, .f32⟩
  | .local _ .vmem, ⟨6, _⟩ => ⟨S32x1, .f32⟩
  | .local _ .vmem, ⟨7, _⟩ => ⟨S32x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x50257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S4096x1 : S4096.ShapeCasts S4096x1
  inb_S32x50257_S32x50257_0_0 : ∀ a, (![0, 0] : Fin 2 → Nat) a + S32x50257.size a ≤ S32x50257.size a
  h_S32x50257 : 0 < S32x50257.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x50257_S32 : S32x50257.Reduces [1] S32
  shapeCasts_S32_S32x1 : S32.ShapeCasts S32x1
  iota_S32x50257_d1_w32 : S32x50257.Iotas .tc 32 [1]
  broadcasts_S32x1_S32x50257 : S32x1.Broadcasts S32x50257
  reducesTo_S4096x1_S_d0_1 : S4096x1.ReducesTo [0, 1] S_
  h_S_ : 0 < S_.numel
  gather_S4096x50257_S4096x2_S4096_n_01_n_n_01_1_11_wf : GatherDims.WF S4096x50257 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S4096x1.size a
  hwx0_0 : ∀ i : grid0.Coords, EltTy.bits .i32 = 32 ∨ (Rect.block (s := S4096x1) S32x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .f32 = 32 ∨ (Rect.block (s := S4096x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x50257.size a ≤ S4096x50257.size a
  hwx0_2 : ∀ i : grid0.Coords, EltTy.bits .f32 = 32 ∨ (Rect.block (s := S4096x50257) S32x50257.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S4096x1.size a
  hwx0_3 : ∀ i : grid0.Coords, EltTy.bits .f32 = 32 ∨ (Rect.block (s := S4096x1) S32x1.size (cc0_transform_3 i) (hinb0_3 i)).WholeWords (EltTy.packing .f32)

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf

abbrev win0_0 : Pipeline.Window sig grid0 :=
  Pipeline.Window.ofSpec (Memref.whole main_v24) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x50257.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 90
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .i1⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x1, .i32⟩
  | .hbm, ⟨50, _⟩ => ⟨S4096x2, .i32⟩
  | .hbm, ⟨51, _⟩ => ⟨S4096x50257, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1, .f32⟩
  | .hbm, ⟨58, _⟩ => ⟨S4096x50257, .f32⟩
  | .hbm, ⟨59, _⟩ => ⟨S4096x50257, .f32⟩
  | .hbm, ⟨60, _⟩ => ⟨S4096x50257, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1, .f32⟩
  | .hbm, ⟨65, _⟩ => ⟨S4096x50257, .f32⟩
  | .hbm, ⟨66, _⟩ => ⟨S4096x50257, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x1, .i32⟩
  | .hbm, ⟨83, _⟩ => ⟨S4096x2, .i32⟩
  | .hbm, ⟨84, _⟩ => ⟨S4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_cst : Ref sig .tc := ⟨.hbm, 52, rfl⟩
abbrev main_call1_v0 : Ref sig .tc := ⟨.hbm, 53, rfl⟩
abbrev main_call1_cst_0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_cst_1 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_c_13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x50257_S4096_d1 : S4096x50257.ReducesTo [1] S4096
  h_S_ : 0 < S_.numel
  bcast_S4096x1_S4096x50257_0_1 : S4096x1.BroadcastsInDim S4096x50257 (![0, 1] : Fin 2 → Fin S4096x50257.rank)
  reducesTo_S4096_S_d0 : S4096.ReducesTo [0] S_
  gather_S4096x50257_S4096x2_S4096_n_01_n_n_01_1_11_wf : GatherDims.WF S4096x50257 S4096x2 S4096 [] [0, 1] [] [0, 1] [] 1 ![1, 1]
  scatter_S4096x50257_S4096x2_S4096_n_01_01_1_wf : ScatterDims.WF S4096x50257 S4096x2 S4096 [] [0, 1] [0, 1] 1

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf
def scatter_S4096x50257_S4096x2_S4096_n_01_01_1 : ScatterDims S4096x50257 S4096x2 S4096 where
  updateWindowDims := []
  insertedWindowDims := [0, 1]
  scatterDimsToOperandDims := [0, 1]
  indexVectorDim := 1
  wf := scatter_S4096x50257_S4096x2_S4096_n_01_01_1_wf

class Facts : Prop extends Facts₀ where

variable [Facts]
-- ==== Proof.RowSpec.lean ====
/-
  The per-row quantity both programs compute, in the two arrangements they compute it in.
  A row of logits x (50257 classes), the row's label word, and the margin-adjusted label logit v.
  Reference's arrangement: replace x_j by v, shift by the maximum M of the replaced row, and take (v − M) − log Σ_c exp(x'_c − M).
  Kernel's arrangement: shift by m = max(max_c x_c, v); sum the exponentials of every class except the label's, add
  exp(v − m); the row's value is (v − m) − log of that sum.
-/
import Idealize.ShloMosaic.PureOps.Ideal
import Idealize.ShloMosaic.PureOps.Vector

noncomputable section

namespace Cert.Spec

open Idealize.ShloMosaic

/-- The row's value as the kernel body arranges it. The label enters only through the test "class c is the label". -/
def kRow (x : Fin 50257 → EReal) (lab : BitVec 32) (v : EReal) : EReal :=
  (v - max ((Finset.univ : Finset (Fin 50257)).fold max (Ideal.ofBits .f32 0xFF800000#32) x) v)
    - Ideal.log ((∑ c : Fin 50257, Scalar.select (IntOp.cmpi .eq (BitVec.ofNat 32 c.val) lab) (Ideal.ofBits .f32 0x00000000#32)
          (Ideal.exp (x c - max ((Finset.univ : Finset (Fin 50257)).fold max (Ideal.ofBits .f32 0xFF800000#32) x) v)))
        + Ideal.exp (v - max ((Finset.univ : Finset (Fin 50257)).fold max (Ideal.ofBits .f32 0xFF800000#32) x) v))

/-- Row x with the entry of class j replaced by v: the row the reference takes the log-softmax of. -/
def xrep (x : Fin 50257 → EReal) (j : Fin 50257) (v : EReal) : Fin 50257 → EReal := fun c => if c = j then v else x c

/-- The reference's shift: the maximum of the replaced row (taken from −∞, and once more against −∞). -/
def rMax (x : Fin 50257 → EReal) (j : Fin 50257) (v : EReal) : EReal :=
  max (Ideal.ofBits .f32 0xFF800000#32) ((Finset.univ : Finset (Fin 50257)).fold max (Ideal.ofBits .f32 0xFF800000#32) (xrep x j v))

/-- The row's value as the reference arranges it: the log-softmax of the replaced row, read at the label j
    (where the replaced row holds v). -/
def rRow (x : Fin 50257 → EReal) (j : Fin 50257) (v : EReal) : EReal :=
  (v - rMax x j v)
    - Ideal.log (Ideal.ofBits .f32 0x00000000#32 + ∑ k : Fin 50257, Ideal.exp (xrep x j v k - rMax x j v))

end Cert.Spec

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.KernelPayload.lean ====
/-
  The kernel body's one store, read at a row: entry (p, 0) of the stored [32 × 1] column is the row value `kRow` of
  row p of the logits block, the label word of row p and the adjusted logit of row p.
  The body's pieces, each read at an index: the row maximum kept as a column; the shift (its maximum with the adjusted
  logit); the exponentials of the shifted logits with the label's column zeroed; their row sum kept as a column.
-/
import proofs.«407891_j32615981645893_3_alg».proof.Proof.Gen.KernelIdeal.Skeleton
import proofs.«407891_j32615981645893_3_alg».proof.Proof.RowSpec
import proofs.«407891_j32615981645893_3_alg».proof.Proof.LibUnitAxes
import Idealize.ShloMosaic.PureOps.Ideal.Laws

set_option maxRecDepth 65536

noncomputable section

namespace Cert.KernelIdeal.Payload

open Idealize.ShloMosaic Idealize.ShloMosaic.ValueIdx Cert.KernelIdeal Cert.KernelIdeal.Gen Cert.Lib

/-- The row maxima of the logits block, from −∞, as a column. -/
def rowMaxCol (v0 : Vec Ideal S32x50257 .f32) : FVec Ideal S32x1 .f32 :=
  shapeCast S32x1 (multiReduction .maximumf [1] S32 v0 0xFF800000#32 reduces_S32x50257_S32 (.inl rfl) rfl) shapeCasts_S32_S32x1

/-- The shift of every row: the larger of its maximum and its adjusted logit. -/
def shiftCol (v0 : Vec Ideal S32x50257 .f32) (v3 : Vec Ideal S32x1 .f32) : FVec Ideal S32x1 .f32 :=
  maximumf (rowMaxCol v0) v3

/-- exp(x − shift), with zero in the label's column of every row. -/
def maskedExp (v0 : Vec Ideal S32x50257 .f32) (v1 : Vec Ideal S32x1 .i32) (v3 : Vec Ideal S32x1 .f32) : FVec Ideal S32x50257 .f32 :=
  select (cmpi .eq (iota .tc S32x50257 32 [1] iota_S32x50257_d1_w32) (broadcastTo S32x50257 v1 broadcasts_S32x1_S32x50257))
    (broadcast S32x50257 (FloatOps.ofBits .f32 0x00000000#32))
    (exp (subf v0 (broadcastTo S32x50257 (shiftCol v0 v3) broadcasts_S32x1_S32x50257)))

/-- The row sums of those, as a column. -/
def sumCol (v0 : Vec Ideal S32x50257 .f32) (v1 : Vec Ideal S32x1 .i32) (v3 : Vec Ideal S32x1 .f32) : FVec Ideal S32x1 .f32 :=
  shapeCast S32x1 (multiReduction .add [1] S32 (maskedExp v0 v1 v3) 0x00000000#32 reduces_S32x50257_S32 (.inl rfl) rfl) shapeCasts_S32_S32x1

/-- The stored value is (v − shift) − log(row sum + exp(v − shift)). -/
theorem pay_eq (v0 : Vec Ideal S32x50257 .f32) (v1 : Vec Ideal S32x1 .i32) (v3 : Vec Ideal S32x1 .f32) :
    k0_pay1 (F := Ideal) v0 v1 v3
      = subf (subf v3 (shiftCol v0 v3)) (log (addf (sumCol v0 v1 v3) (exp (subf v3 (shiftCol v0 v3))))) := by
  unfold k0_pay1
  simp only [shapeCast_self]
  rfl

/-- A row's maximum from −∞: the fold of max over the row's 50257 entries. -/
theorem max_read (v0 : Vec Ideal S32x50257 .f32) (hφ : FKind.Formats .f32)
    (hacc : (0xFF800000#32 : BitVec 32) = FKind.maximumf.neutral .f32 hφ) (p : Fin 32) :
    multiReduction .maximumf [1] S32 v0 0xFF800000#32 reduces_S32x50257_S32 hφ hacc (ix1 p)
      = (Finset.univ : Finset (Fin 50257)).fold max (Ideal.ofBits .f32 0xFF800000#32) (fun c => v0 (ix2 p c)) := by
  rw [Ideal.multiReduction_maximumf_single]
  have hf : (v0 ∘ (reduces_S32x50257_S32).lift (ix1 p)) = fun c : Fin 50257 => v0 (ix2 p c) :=
    funext fun k => congrArg v0 (lift_row_col reduces_S32x50257_S32 p k)
  rw [hf]
  rfl

/-- A row's sum from 0: the sum of the row's 50257 entries. -/
theorem sum_read (w : FVec Ideal S32x50257 .f32) (hφ : FKind.Formats .f32)
    (hacc : (0x00000000#32 : BitVec 32) = FKind.add.neutral .f32 hφ) (p : Fin 32) :
    multiReduction (F := Ideal) .add [1] S32 w 0x00000000#32 reduces_S32x50257_S32 hφ hacc (ix1 p) = ∑ c : Fin 50257, w (ix2 p c) := by
  rw [Ideal.multiReduction_add_single]
  exact Finset.sum_congr rfl fun k _ => congrArg w (lift_row_col reduces_S32x50257_S32 p k)

theorem rowMaxCol_apply (v0 : Vec Ideal S32x50257 .f32) (p : Fin 32) :
    rowMaxCol v0 (ix2 p (0 : Fin 1))
      = (Finset.univ : Finset (Fin 50257)).fold max (Ideal.ofBits .f32 0xFF800000#32) (fun c => v0 (ix2 p c)) := by
  unfold rowMaxCol
  rw [shapeCast_a_a1_apply]
  exact max_read v0 _ _ p

theorem shiftCol_apply (v0 : Vec Ideal S32x50257 .f32) (v3 : Vec Ideal S32x1 .f32) (p : Fin 32) :
    shiftCol v0 v3 (ix2 p (0 : Fin 1))
      = max ((Finset.univ : Finset (Fin 50257)).fold max (Ideal.ofBits .f32 0xFF800000#32) (fun c => v0 (ix2 p c))) (v3 (ix2 p (0 : Fin 1))) := by
  unfold shiftCol
  rw [maximumf_apply, rowMaxCol_apply]

theorem maskedExp_apply (v0 : Vec Ideal S32x50257 .f32) (v1 : Vec Ideal S32x1 .i32) (v3 : Vec Ideal S32x1 .f32) (p : Fin 32) (c : Fin 50257) :
    maskedExp v0 v1 v3 (ix2 p c)
      = Scalar.select (IntOp.cmpi .eq (BitVec.ofNat 32 c.val) (v1 (ix2 p (0 : Fin 1)))) (Ideal.ofBits .f32 0x00000000#32)
          (Ideal.exp (v0 (ix2 p c) - shiftCol v0 v3 (ix2 p (0 : Fin 1)))) := by
  unfold maskedExp
  rw [select_apply]
  have h1 : (cmpi .eq (iota .tc S32x50257 32 [1] iota_S32x50257_d1_w32) (broadcastTo S32x50257 v1 broadcasts_S32x1_S32x50257)) (ix2 p c)
      = IntOp.cmpi .eq (BitVec.ofNat 32 c.val) (v1 (ix2 p (0 : Fin 1))) := by
    show IntOp.cmpi .eq (iota .tc S32x50257 32 [1] iota_S32x50257_d1_w32 (ix2 p c)) (broadcastTo S32x50257 v1 broadcasts_S32x1_S32x50257 (ix2 p c)) = _
    rw [iota_single_apply, broadcastTo_a1_ab_apply]
  have h2 : (exp (subf v0 (broadcastTo S32x50257 (shiftCol v0 v3) broadcasts_S32x1_S32x50257))) (ix2 p c)
      = Ideal.exp (v0 (ix2 p c) - shiftCol v0 v3 (ix2 p (0 : Fin 1))) := by
    show Ideal.exp (v0 (ix2 p c) - broadcastTo S32x50257 (shiftCol v0 v3) broadcasts_S32x1_S32x50257 (ix2 p c)) = _
    rw [broadcastTo_a1_ab_apply]
  rw [h1, h2]
  rfl

theorem sumCol_apply (v0 : Vec Ideal S32x50257 .f32) (v1 : Vec Ideal S32x1 .i32) (v3 : Vec Ideal S32x1 .f32) (p : Fin 32) :
    sumCol v0 v1 v3 (ix2 p (0 : Fin 1)) = ∑ c : Fin 50257, maskedExp v0 v1 v3 (ix2 p c) := by
  unfold sumCol
  rw [shapeCast_a_a1_apply]
  exact sum_read (maskedExp v0 v1 v3) _ _ p

theorem pay_apply (v0 : Vec Ideal S32x50257 .f32) (v1 : Vec Ideal S32x1 .i32) (v3 : Vec Ideal S32x1 .f32) (p : Fin 32) :
    (k0_pay1 (F := Ideal) v0 v1 v3) (ix2 p (0 : Fin 1))
      = Cert.Spec.kRow (fun c => v0 (ix2 p c)) (v1 (ix2 p (0 : Fin 1))) (v3 (ix2 p (0 : Fin 1))) := by
  rw [pay_eq]
  show (v3 (ix2 p (0 : Fin 1)) - shiftCol v0 v3 (ix2 p (0 : Fin 1)))
      - Ideal.log (sumCol v0 v1 v3 (ix2 p (0 : Fin 1)) + Ideal.exp (v3 (ix2 p (0 : Fin 1)) - shiftCol v0 v3 (ix2 p (0 : Fin 1)))) = _
  rw [sumCol_apply]
  simp only [maskedExp_apply, shiftCol_apply]
  rfl

end Cert.KernelIdeal.Payload

end
-- ==== Proof.KernelBlocks.lean ====
/-
  From the kernel's blocks to its output array. Grid point t handles rows 32·t … 32·t + 31: it stores, at row p of
  its [32 × 1] output block, the row value of row 32·t + p. So the output column after the run holds, at (r, 0), the row
  value `kRow` of row r of the logits, the label word of row r and the adjusted logit of row r.
-/
import proofs.«407891_j32615981645893_3_alg».proof.Proof.Gen.KernelIdeal.Frame
import proofs.«407891_j32615981645893_3_alg».proof.Proof.KernelPayload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen
open Facts₀

variable (m : (ℓ : Loc nD τ sig) → Buf (Elt Ideal) ℓ) (ρ : Dev nD → PrngReg)

/-- The arrays the region finds, by their literal types. -/
abbrev xarr (c : Dev nD) : Vec Ideal S4096x50257 .f32 := V m c main_arg0
abbrev labcol (c : Dev nD) : Vec Ideal S4096x1 .i32 := V m c main_v24
abbrev valcol (c : Dev nD) : Vec Ideal S4096x1 .f32 := V m c main_v25

/-- The output column as one function of those arrays. -/
def G (c : Dev nD) : Vec Ideal S4096x1 .f32 := fun i =>
  Cert.Spec.kRow (fun k => xarr m c (ix2 (i 0) k)) (labcol m c (ix2 (i 0) (0 : Fin 1))) (valcol m c (ix2 (i 0) (0 : Fin 1)))

theorem hz : (![0, 0] : Fin 2 → Nat) = fun _ => 0 := funext fun a => by fin_cases a <;> rfl

/-- The printed index maps over the grid: every window's block row is the point's number, its block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's stored column at a point of the block, over literal vector and index types. -/
theorem point_eq (x0 : Vec Ideal S32x1 .i32) (x1 : Vec Ideal S32x1 .f32) (x2 : Vec Ideal S32x50257 .f32) (y : S32x1.Idx) (g : EReal)
    (h : Cert.Spec.kRow (fun k => x2 (ix2 (y 0) k)) (x0 (ix2 (y 0) (0 : Fin 1))) (x1 (ix2 (y 0) (0 : Fin 1))) = g) :
    k0_pay1 (F := Ideal) x2 x0 x1 y = g := by
  obtain ⟨p, q, rfl⟩ : ∃ (p : Fin 32) (q : Fin 1), y = ix2 p q := ⟨y 0, y 1, eq_ix2 y⟩
  obtain rfl : q = 0 := Subsingleton.elim _ _
  exact (Cert.KernelIdeal.Payload.pay_apply x2 x0 x1 p).trans h

/-- WHAT POINT t WRITES BACK is block t of G. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S32x1) hz, View.ld_unit_zero (S := S32x50257) hz]
  obtain ⟨e00, e01, e10, e11, e20, e21, e30, e31⟩ := idx_facts t
  funext j
  refine point_eq (iblk m c 0 t) (iblk m c 1 t) (iblk m c 2 t) j _ ?_
  show _ = G m c (((cfg0.win 3).blk t).view.emb j)
  unfold G
  have hrow : ((((cfg0.win 3).blk t).view.emb j) 0).val = t.val * 32 + (j 0).val := by
    show win0_3.index t (0 : Fin 2) * 32 + 1 * (j 0).val = _
    omega
  have hx : ∀ k : Fin 50257, iblk m c 2 t (ix2 (j 0) k) = xarr m c (ix2 ((((cfg0.win 3).blk t).view.emb j) 0) k) := by
    intro k
    show V m c main_arg0 (((cfg0.win 2).blk t).view.emb (ix2 (j 0) k)) = V m c main_arg0 (ix2 ((((cfg0.win 3).blk t).view.emb j) 0) k)
    refine congrArg _ (funext fun a => Fin.ext ?_)
    match a with
    | ⟨0, _⟩ => show win0_2.index t (0 : Fin 2) * 32 + 1 * (j 0).val = ((((cfg0.win 3).blk t).view.emb j) 0).val; omega
    | ⟨1, _⟩ => show win0_2.index t (1 : Fin 2) * 50257 + 1 * k.val = k.val; omega
  have hl : iblk m c 0 t (ix2 (j 0) (0 : Fin 1)) = labcol m c (ix2 ((((cfg0.win 3).blk t).view.emb j) 0) (0 : Fin 1)) := by
    show V m c main_v24 (((cfg0.win 0).blk t).view.emb (ix2 (j 0) (0 : Fin 1))) = V m c main_v24 (ix2 ((((cfg0.win 3).blk t).view.emb j) 0) (0 : Fin 1))
    refine congrArg _ (funext fun a => Fin.ext ?_)
    match a with
    | ⟨0, _⟩ => show win0_0.index t (0 : Fin 2) * 32 + 1 * (j 0).val = ((((cfg0.win 3).blk t).view.emb j) 0).val; omega
    | ⟨1, _⟩ => show win0_0.index t (1 : Fin 2) * 1 + 1 * 0 = 0; omega
  have hv : iblk m c 1 t (ix2 (j 0) (0 : Fin 1)) = valcol m c (ix2 ((((cfg0.win 3).blk t).view.emb j) 0) (0 : Fin 1)) := by
    show V m c main_v25 (((cfg0.win 1).blk t).view.emb (ix2 (j 0) (0 : Fin 1))) = V m c main_v25 (ix2 ((((cfg0.win 3).blk t).view.emb j) 0) (0 : Fin 1))
    refine congrArg _ (funext fun a => Fin.ext ?_)
    match a with
    | ⟨0, _⟩ => show win0_1.index t (0 : Fin 2) * 32 + 1 * (j 0).val = ((((cfg0.win 3).blk t).view.emb j) 0).val; omega
    | ⟨1, _⟩ => show win0_1.index t (1 : Fin 2) * 1 + 1 * 0 = 0; omega
  rw [hl, hv]
  exact congrArg (fun f => Cert.Spec.kRow f _ _) (funext hx)

/-- An index of the output column is in point t's block iff its row lies among the point's 32 rows. -/
theorem mem_blk (t : Fin cfg0.N) (i : S4096x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v26).slice (win0_3.rect t)).set ↔ _
  rw [View.set_slice_whole, Rect.mem_set_unit]
  exact Iff.rfl

/-- Every row belongs to some point: row r to point r / 32. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  refine ⟨⟨(i 0).val / 32, by show _ < grid0.N; rw [N_0]; omega⟩, flush0_3 _, ?_⟩
  rw [mem_blk]
  obtain ⟨e00, e01, e10, e11, e20, e21, e30, e31⟩ := idx_facts ⟨(i 0).val / 32, by show _ < grid0.N; rw [N_0]; omega⟩
  intro a
  match a with
  | ⟨0, _⟩ => show win0_3.index _ (0 : Fin 2) * 32 ≤ (i 0).val ∧ (i 0).val < win0_3.index _ (0 : Fin 2) * 32 + 32; rw [e30]; show (i 0).val / 32 * 32 ≤ _ ∧ _ < (i 0).val / 32 * 32 + 32; omega
  | ⟨1, _⟩ => show win0_3.index _ (1 : Fin 2) * 1 ≤ (i 1).val ∧ (i 1).val < win0_3.index _ (1 : Fin 2) * 1 + 1; rw [e31]; omega

/-- THE OUTPUT COLUMN after the run is G. -/
theorem final (c : Dev nD) : (dats m 0 c).arrAt 3 cfg0.N = G m c :=
  (dats m 0 c).arrAt_eq_of_cover 3 (G m c) (fun t _ => flushed_eq m c t) cover

end Cert.KernelIdeal.Blocks

end
-- ==== Proof.KernelRun.lean ====
/-
  The kernel program's run, read: after the region the host sums the output column, divides by 4096 and negates.
  So the result is −(Σ_r G(r, 0)) / 4096 with G the output column as a function of the arrays the region finds.
-/
import proofs.«407891_j32615981645893_3_alg».proof.Proof.KernelBlocks
import Idealize.ShloMosaic.Lib.StableHlo.Run

set_option maxRecDepth 16384

noncomputable section

namespace Cert.KernelIdeal.Run

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Blocks

variable (m : (ℓ : Loc nD τ sig) → Buf (Elt Ideal) ℓ) (ρ : Dev nD → PrngReg)

/-- The program's result from the output column: summed from 0, divided by 4096, negated. -/
def kres (c : Dev nD) : FVec Ideal S_ .f32 :=
  Host.negf (F := Ideal) (Host.divf (F := Ideal) (Host.reduceAdd (F := Ideal) (G m c) (constant (F := Ideal) S_ .f32 0x00000000#32) reducesTo_S4096x1_S_d0_1 h_S_) (constant (F := Ideal) S_ .f32 0x45800000#32))

theorem tail_eq (c : Dev nD) : Pipeline.afterTail₀ cfgs (dats m) 0 (V0 m) [hostOps1] c main_v29 = kres m c := by
  unfold Pipeline.afterTail₀
  show StableHlo.after hostOps1 _ (Proc.devRef .tc main_v29) = _
  after_results
  have hw : Pipeline.withArrays (cfgs 0).spec c (V0 m c) (fun w => (dats m 0 c).arrAt w (cfgs 0).N) (Proc.devRef .tc main_v26) = G m c :=
    (Pipeline.withArrays_arr spec0 launch0.win.arr_inj c (V0 m c) (fun w => (dats m 0 c).arrAt w (cfgs 0).N) 3).trans (final m c)
  rw [hw]
  rfl

/-- THE RUN: every weakly fair execution of the kernel program terminates with its result at `kres` and its
    arguments unchanged. -/
theorem run : θ_run defs (onTc (τ := τ) (main (F := Ideal))) ⟨m, fun _ => 0, ρ⟩ fun r => ∀ c : Dev nD,
      r.2.mem ((c.tc : Thread nD τ).loc main_v29) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v29 (Pipeline.mem_restRefs_of main_v29 (by decide) (by decide))).trans (tail_eq m c),
       ((h c).1 2).trans (((dats m 0 c).arrAt_in 2 rfl _).trans ((A_eq m c 2).trans (V_main_arg0 m c))),
       ((h c).2 main_arg1 (Pipeline.mem_restRefs_of main_arg1 (by decide) (by decide))).trans (W_main_arg1 m (dats m) c)⟩)
    (run_main m ρ)

end Cert.KernelIdeal.Run

end
-- ==== Proof.RowIndex.lean ====
/-
  The start indices "(row r, column label r)" as jnp builds them for x[arange(N), labels]: each index vector is
  normalised the NumPy way (a negative index has the axis extent added), the two are laid side by side as the
  columns of an [N × 2] array. For labels already in [0, C) the normalisation changes nothing: row r of the array
  holds (r, label r), read as signed integers.
-/
import Idealize.ShloMosaic.PureOps.Vector
import Idealize.ShloMosaic.Lib.Pipeline.Value
import Idealize.ShloMosaic.Lib.ValueIdx

noncomputable section

namespace Cert.Lib

open Idealize.ShloMosaic Idealize.ShloMosaic.ValueIdx

/-- The row numbers 0 … 4095, normalised: a negative one has 4096 added (none is negative). -/
def normRows (hb : (⟨0, ![]⟩ : Shape).BroadcastsInDim (⟨1, ![4096]⟩ : Shape) (![] : Fin 0 → Fin 1)) : IVec (⟨1, ![4096]⟩ : Shape) 32 :=
  select (cmpi .slt (iotaInDim (⟨1, ![4096]⟩ : Shape) 32 0) (broadcastInDim (⟨1, ![4096]⟩ : Shape) ![] hb (constantI (⟨0, ![]⟩ : Shape) 32 0#32)))
    (addi (iotaInDim (⟨1, ![4096]⟩ : Shape) 32 0) (broadcastInDim (⟨1, ![4096]⟩ : Shape) ![] hb (constantI (⟨0, ![]⟩ : Shape) 32 4096#32)))
    (iotaInDim (⟨1, ![4096]⟩ : Shape) 32 0)

/-- The labels, normalised: a negative one has 50257 added. -/
def normCols (hb : (⟨0, ![]⟩ : Shape).BroadcastsInDim (⟨1, ![4096]⟩ : Shape) (![] : Fin 0 → Fin 1)) (lab : IVec (⟨1, ![4096]⟩ : Shape) 32) :
    IVec (⟨1, ![4096]⟩ : Shape) 32 :=
  select (cmpi .slt lab (broadcastInDim (⟨1, ![4096]⟩ : Shape) ![] hb (constantI (⟨0, ![]⟩ : Shape) 32 0#32)))
    (addi lab (broadcastInDim (⟨1, ![4096]⟩ : Shape) ![] hb (constantI (⟨0, ![]⟩ : Shape) 32 50257#32)))
    lab

/-- The [4096 × 2] array of start indices: column 0 the normalised rows, column 1 the normalised labels. -/
def startIdx (hb : (⟨0, ![]⟩ : Shape).BroadcastsInDim (⟨1, ![4096]⟩ : Shape) (![] : Fin 0 → Fin 1))
    (hc : (⟨1, ![4096]⟩ : Shape).BroadcastsInDim (⟨2, ![4096, 1]⟩ : Shape) (![0] : Fin 1 → Fin 2))
    (hcat : Shape.Concatenates [(⟨2, ![4096, 1]⟩ : Shape), (⟨2, ![4096, 1]⟩ : Shape)] (⟨2, ![4096, 2]⟩ : Shape) 1)
    (lab : IVec (⟨1, ![4096]⟩ : Shape) 32) : IVec (⟨2, ![4096, 2]⟩ : Shape) 32 :=
  concatenate (⟨2, ![4096, 2]⟩ : Shape) 1
    [⟨(⟨2, ![4096, 1]⟩ : Shape), broadcastInDim (⟨2, ![4096, 1]⟩ : Shape) ![0] hc (normRows hb)⟩,
     ⟨(⟨2, ![4096, 1]⟩ : Shape), broadcastInDim (⟨2, ![4096, 1]⟩ : Shape) ![0] hc (normCols hb lab)⟩] hcat

/-- A word that is not negative as a signed integer does not compare below zero. -/
private theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0]
    exact decide_eq_false (by omega)
  unfold IntOp.cmpi
  simp only [hs]
  rfl

/-- A row number below 4096, as a 32-bit word, reads as itself signed. -/
private theorem toInt_ofNat_row (r : Fin 4096) : (BitVec.ofNat 32 r.val).toInt = (r.val : ℤ) := by
  have hr := r.isLt
  rw [BitVec.toInt_eq_msb_cond, BitVec.msb_eq_false_iff_two_mul_lt.mpr (by simp [BitVec.toNat_ofNat]; omega)]
  simp [BitVec.toNat_ofNat]; omega

/-- The normalised row numbers at r: the word r. -/
private theorem normRows_apply (hb : (⟨0, ![]⟩ : Shape).BroadcastsInDim (⟨1, ![4096]⟩ : Shape) (![] : Fin 0 → Fin 1)) (r : Fin 4096) :
    normRows hb (ix1 r) = BitVec.ofNat 32 r.val := by
  show Scalar.select (IntOp.cmpi .slt (BitVec.ofNat 32 r.val) 0#32) (IntOp.addi (BitVec.ofNat 32 r.val) 4096#32) (BitVec.ofNat 32 r.val) = _
  rw [cmpi_slt_zero_of_nonneg _ (by rw [toInt_ofNat_row]; omega), select_zero]

/-- The normalised labels at r: the label, when it is not negative. -/
private theorem normCols_apply (hb : (⟨0, ![]⟩ : Shape).BroadcastsInDim (⟨1, ![4096]⟩ : Shape) (![] : Fin 0 → Fin 1))
    (lab : IVec (⟨1, ![4096]⟩ : Shape) 32) (r : Fin 4096) (hlab : 0 ≤ (lab (ix1 r)).toInt) :
    normCols hb lab (ix1 r) = lab (ix1 r) := by
  show Scalar.select (IntOp.cmpi .slt (lab (ix1 r)) 0#32) (IntOp.addi (lab (ix1 r)) 50257#32) (lab (ix1 r)) = _
  rw [cmpi_slt_zero_of_nonneg _ hlab, select_zero]

/-- Row r of the start indices holds r in column 0. -/
theorem startIdx_row (hb : (⟨0, ![]⟩ : Shape).BroadcastsInDim (⟨1, ![4096]⟩ : Shape) (![] : Fin 0 → Fin 1))
    (hc : (⟨1, ![4096]⟩ : Shape).BroadcastsInDim (⟨2, ![4096, 1]⟩ : Shape) (![0] : Fin 1 → Fin 2))
    (hcat : Shape.Concatenates [(⟨2, ![4096, 1]⟩ : Shape), (⟨2, ![4096, 1]⟩ : Shape)] (⟨2, ![4096, 2]⟩ : Shape) 1)
    (lab : IVec (⟨1, ![4096]⟩ : Shape) 32) (r : Fin 4096) :
    (startIdx hb hc hcat lab (ix2 r (0 : Fin 2))).toInt = (r.val : ℤ) := by
  unfold startIdx
  rw [concatenate_pair_apply_left (t := ⟨2, ![4096, 2]⟩) (s₁ := ⟨2, ![4096, 1]⟩) (s₂ := ⟨2, ![4096, 1]⟩) (1 : Fin 2) _ _ hcat (ix2 r (0 : Fin 2)) rfl (ix2 r (0 : Fin 1))
    (by intro b; match b with | ⟨0, _⟩ => rfl | ⟨1, _⟩ => rfl)]
  rw [broadcastInDim_apply ![0] hc (normRows hb) (ix2 r (0 : Fin 1)) (ix1 r)
    (by intro a; match a with | ⟨0, _⟩ => exact (if_neg (show ¬ (4096 : Nat) = 1 by omega)).symm)]
  rw [normRows_apply, toInt_ofNat_row]

/-- Row r of the start indices holds the label of row r in column 1, when that label is not negative. -/
theorem startIdx_col (hb : (⟨0, ![]⟩ : Shape).BroadcastsInDim (⟨1, ![4096]⟩ : Shape) (![] : Fin 0 → Fin 1))
    (hc : (⟨1, ![4096]⟩ : Shape).BroadcastsInDim (⟨2, ![4096, 1]⟩ : Shape) (![0] : Fin 1 → Fin 2))
    (hcat : Shape.Concatenates [(⟨2, ![4096, 1]⟩ : Shape), (⟨2, ![4096, 1]⟩ : Shape)] (⟨2, ![4096, 2]⟩ : Shape) 1)
    (lab : IVec (⟨1, ![4096]⟩ : Shape) 32) (r : Fin 4096) (hlab : 0 ≤ (lab (ix1 r)).toInt) :
    startIdx hb hc hcat lab (ix2 r (1 : Fin 2)) = lab (ix1 r) := by
  unfold startIdx
  rw [concatenate_pair_apply_right (t := ⟨2, ![4096, 2]⟩) (s₁ := ⟨2, ![4096, 1]⟩) (s₂ := ⟨2, ![4096, 1]⟩) (1 : Fin 2) _ _ hcat (ix2 r (1 : Fin 2)) rfl rfl (ix2 r (0 : Fin 1))
    (by intro b hb'; match b, hb' with | ⟨0, _⟩, _ => rfl | ⟨1, _⟩, hb' => exact absurd rfl hb')
    (by rfl)]
  rw [broadcastInDim_apply ![0] hc (normCols hb lab) (ix2 r (0 : Fin 1)) (ix1 r)
    (by intro a; match a with | ⟨0, _⟩ => exact (if_neg (show ¬ (4096 : Nat) = 1 by omega)).symm)]
  exact normCols_apply hb lab r hlab

end Cert.Lib

end
-- ==== Proof.LibScatterRows.lean ====
/-
  One element per row, read and written through StableHLO's gather and scatter.
  The start indices are an [R × 2] array whose row r holds (r, col r): the gather then reads x at (r, col r), and the
  scatter (its body returning the update) replaces exactly that element of row r by the r-th update and leaves every
  other element as it was. The rows are pairwise distinct, so no two updates meet, and every start index lies inside
  the operand, so nothing is clamped and nothing is dropped.
-/
import Idealize.ShloMosaic.PureOps.ShapeOps
import Idealize.ShloMosaic.Lib.ValueIdx

namespace Cert.Lib

open Idealize.ShloMosaic Idealize.ShloMosaic.ValueIdx

variable {R C w : ℕ} {α : Type}

/-! ## The gather -/

/-- The gather's dimension numbers: both operand axes collapsed and both named by the start index map. -/
private abbrev gDims (wf : GatherDims.WF (⟨2, ![R, C]⟩ : Shape) (⟨2, ![R, 2]⟩ : Shape) (⟨1, ![R]⟩ : Shape) [] [0, 1] [] [0, 1] [] 1 ![1, 1]) :
    GatherDims (⟨2, ![R, C]⟩ : Shape) (⟨2, ![R, 2]⟩ : Shape) (⟨1, ![R]⟩ : Shape) :=
  { offsetDims := [], collapsedSliceDims := [0, 1], operandBatchingDims := [], startIndicesBatchingDims := [], startIndexMap := [0, 1], indexVectorDim := 1, sliceSizes := ![1, 1], wf := wf }

/-- Component 0 of the start index of result row r is read at (r, 0). -/
private theorem g_siIdx0 (wf : GatherDims.WF (⟨2, ![R, C]⟩ : Shape) (⟨2, ![R, 2]⟩ : Shape) (⟨1, ![R]⟩ : Shape) [] [0, 1] [] [0, 1] [] 1 ![1, 1])
    (r : Fin R) (h : List.idxOf (0 : Fin 2) (gDims wf).startIndexMap < (gDims wf).startIndexMap.length) :
    (gDims wf).siIdx (ix1 r) ⟨List.idxOf (0 : Fin 2) (gDims wf).startIndexMap, h⟩ = ix2 r 0 := by
  funext b; refine Fin.ext ?_
  match b with
  | ⟨0, _⟩ => rfl
  | ⟨1, _⟩ => rfl

/-- Component 1 of the start index of result row r is read at (r, 1). -/
private theorem g_siIdx1 (wf : GatherDims.WF (⟨2, ![R, C]⟩ : Shape) (⟨2, ![R, 2]⟩ : Shape) (⟨1, ![R]⟩ : Shape) [] [0, 1] [] [0, 1] [] 1 ![1, 1])
    (r : Fin R) (h : List.idxOf (1 : Fin 2) (gDims wf).startIndexMap < (gDims wf).startIndexMap.length) :
    (gDims wf).siIdx (ix1 r) ⟨List.idxOf (1 : Fin 2) (gDims wf).startIndexMap, h⟩ = ix2 r 1 := by
  funext b; refine Fin.ext ?_
  match b with
  | ⟨0, _⟩ => rfl
  | ⟨1, _⟩ => rfl

/-- The slice of result row r starts on axis 0 at r: the start index r is below R, so the clamp is the identity. -/
private theorem g_start0 (wf : GatherDims.WF (⟨2, ![R, C]⟩ : Shape) (⟨2, ![R, 2]⟩ : Shape) (⟨1, ![R]⟩ : Shape) [] [0, 1] [] [0, 1] [] 1 ![1, 1])
    (idx : IVec (⟨2, ![R, 2]⟩ : Shape) w) (h0 : ∀ r : Fin R, (idx (ix2 r 0)).toInt = (r.val : ℤ)) (r : Fin R) :
    (gDims wf).start (ix1 r) idx (0 : Fin 2) = r.val := by
  unfold GatherDims.start
  rw [dif_pos (show (0 : Fin 2) ∈ (gDims wf).startIndexMap from List.mem_cons_self), g_siIdx0 wf r, h0 r]
  show min (r.val : ℤ).toNat (R - 1) = r.val
  have := r.isLt
  rw [Int.toNat_natCast]
  omega

/-- The slice of result row r starts on axis 1 at col r: below C, so the clamp is the identity. -/
private theorem g_start1 (wf : GatherDims.WF (⟨2, ![R, C]⟩ : Shape) (⟨2, ![R, 2]⟩ : Shape) (⟨1, ![R]⟩ : Shape) [] [0, 1] [] [0, 1] [] 1 ![1, 1])
    (idx : IVec (⟨2, ![R, 2]⟩ : Shape) w) (col : Fin R → Fin C)
    (h1 : ∀ r : Fin R, (idx (ix2 r 1)).toInt = ((col r).val : ℤ)) (r : Fin R) :
    (gDims wf).start (ix1 r) idx (1 : Fin 2) = (col r).val := by
  unfold GatherDims.start
  rw [dif_pos (show (1 : Fin 2) ∈ (gDims wf).startIndexMap from List.mem_cons_of_mem _ List.mem_cons_self),
    g_siIdx1 wf r, h1 r]
  show min ((col r).val : ℤ).toNat (C - 1) = (col r).val
  have := (col r).isLt
  rw [Int.toNat_natCast]
  omega

/-- The gather of one element per row, read at row r: the operand at (r, col r). -/
theorem gather_rows_apply
    (wf : GatherDims.WF (⟨2, ![R, C]⟩ : Shape) (⟨2, ![R, 2]⟩ : Shape) (⟨1, ![R]⟩ : Shape) [] [0, 1] [] [0, 1] [] 1 ![1, 1])
    (x : (⟨2, ![R, C]⟩ : Shape).Idx → α) (idx : IVec (⟨2, ![R, 2]⟩ : Shape) w) (col : Fin R → Fin C)
    (h0 : ∀ r : Fin R, (idx (ix2 r 0)).toInt = (r.val : ℤ)) (h1 : ∀ r : Fin R, (idx (ix2 r 1)).toInt = ((col r).val : ℤ))
    (r : Fin R) :
    Host.gather ({ offsetDims := [], collapsedSliceDims := [0, 1], operandBatchingDims := [], startIndicesBatchingDims := [], startIndexMap := [0, 1], indexVectorDim := 1, sliceSizes := ![1, 1], wf := wf } :
          GatherDims (⟨2, ![R, C]⟩ : Shape) (⟨2, ![R, 2]⟩ : Shape) (⟨1, ![R]⟩ : Shape)) x idx (ix1 r)
      = x (ix2 r (col r)) := by
  show Host.gather (gDims wf) x idx (ix1 r) = _
  unfold Host.gather
  congr 1
  funext a
  refine Fin.ext ?_
  match a with
  | ⟨0, _⟩ =>
    show (gDims wf).start (ix1 r) idx (0 : Fin 2) + (gDims wf).batchCoord (ix1 r) (0 : Fin 2)
      + (gDims wf).offCoord (ix1 r) (0 : Fin 2) = r.val
    rw [GatherDims.batchCoord_eq_zero _ _ _ List.not_mem_nil,
      GatherDims.offCoord_eq_zero _ _ _ (fun h => ((GatherDims.mem_sKept _ _).mp h).1 List.mem_cons_self),
      g_start0 wf idx h0 r]
    simp only [Nat.add_zero]
  | ⟨1, _⟩ =>
    show (gDims wf).start (ix1 r) idx (1 : Fin 2) + (gDims wf).batchCoord (ix1 r) (1 : Fin 2)
      + (gDims wf).offCoord (ix1 r) (1 : Fin 2) = (col r).val
    rw [GatherDims.batchCoord_eq_zero _ _ _ List.not_mem_nil,
      GatherDims.offCoord_eq_zero _ _ _
        (fun h => ((GatherDims.mem_sKept _ _).mp h).1 (List.mem_cons_of_mem _ List.mem_cons_self)),
      g_start1 wf idx col h1 r]
    simp only [Nat.add_zero]

/-! ## The scatter -/

/-- The scatter's dimension numbers: both operand axes inserted and both named by the index map, no window axes. -/
private abbrev sDims (wf : ScatterDims.WF (⟨2, ![R, C]⟩ : Shape) (⟨2, ![R, 2]⟩ : Shape) (⟨1, ![R]⟩ : Shape) [] [0, 1] [0, 1] 1) :
    ScatterDims (⟨2, ![R, C]⟩ : Shape) (⟨2, ![R, 2]⟩ : Shape) (⟨1, ![R]⟩ : Shape) :=
  { updateWindowDims := [], insertedWindowDims := [0, 1], scatterDimsToOperandDims := [0, 1], indexVectorDim := 1, wf := wf }

/-- The row of an update index: its one coordinate. -/
private abbrev row (j : (⟨1, ![R]⟩ : Shape).Idx) : Fin R := j 0

/-- Component 0 of the start index of update j is read at (row j, 0). -/
private theorem s_siIdx0 (wf : ScatterDims.WF (⟨2, ![R, C]⟩ : Shape) (⟨2, ![R, 2]⟩ : Shape) (⟨1, ![R]⟩ : Shape) [] [0, 1] [0, 1] 1)
    (j : (⟨1, ![R]⟩ : Shape).Idx)
    (h : List.idxOf (0 : Fin 2) (sDims wf).scatterDimsToOperandDims < (sDims wf).scatterDimsToOperandDims.length) :
    (sDims wf).siIdx j ⟨List.idxOf (0 : Fin 2) (sDims wf).scatterDimsToOperandDims, h⟩ = ix2 (row j) 0 := by
  funext b; refine Fin.ext ?_
  match b with
  | ⟨0, _⟩ => rfl
  | ⟨1, _⟩ => rfl

/-- Component 1 of the start index of update j is read at (j 0, 1). -/
private theorem s_siIdx1 (wf : ScatterDims.WF (⟨2, ![R, C]⟩ : Shape) (⟨2, ![R, 2]⟩ : Shape) (⟨1, ![R]⟩ : Shape) [] [0, 1] [0, 1] 1)
    (j : (⟨1, ![R]⟩ : Shape).Idx)
    (h : List.idxOf (1 : Fin 2) (sDims wf).scatterDimsToOperandDims < (sDims wf).scatterDimsToOperandDims.length) :
    (sDims wf).siIdx j ⟨List.idxOf (1 : Fin 2) (sDims wf).scatterDimsToOperandDims, h⟩ = ix2 (row j) 1 := by
  funext b; refine Fin.ext ?_
  match b with
  | ⟨0, _⟩ => rfl
  | ⟨1, _⟩ => rfl

/-- Update j starts on axis 0 at its row j 0. -/
private theorem s_start0 (wf : ScatterDims.WF (⟨2, ![R, C]⟩ : Shape) (⟨2, ![R, 2]⟩ : Shape) (⟨1, ![R]⟩ : Shape) [] [0, 1] [0, 1] 1)
    (idx : IVec (⟨2, ![R, 2]⟩ : Shape) w) (h0 : ∀ r : Fin R, (idx (ix2 r 0)).toInt = (r.val : ℤ))
    (j : (⟨1, ![R]⟩ : Shape).Idx) :
    (sDims wf).start j idx (0 : Fin 2) = ((row j).val : ℤ) := by
  unfold ScatterDims.start
  rw [dif_pos (show (0 : Fin 2) ∈ (sDims wf).scatterDimsToOperandDims from List.mem_cons_self), s_siIdx0 wf j, h0 (row j)]

/-- Update j starts on axis 1 at the column of its row. -/
private theorem s_start1 (wf : ScatterDims.WF (⟨2, ![R, C]⟩ : Shape) (⟨2, ![R, 2]⟩ : Shape) (⟨1, ![R]⟩ : Shape) [] [0, 1] [0, 1] 1)
    (idx : IVec (⟨2, ![R, 2]⟩ : Shape) w) (col : Fin R → Fin C)
    (h1 : ∀ r : Fin R, (idx (ix2 r 1)).toInt = ((col r).val : ℤ)) (j : (⟨1, ![R]⟩ : Shape).Idx) :
    (sDims wf).start j idx (1 : Fin 2) = ((col (row j)).val : ℤ) := by
  unfold ScatterDims.start
  rw [dif_pos (show (1 : Fin 2) ∈ (sDims wf).scatterDimsToOperandDims from List.mem_cons_of_mem _ List.mem_cons_self),
    s_siIdx1 wf j, h1 (row j)]

/-- Both operand axes are inserted, so no axis is kept for a window … -/
private theorem s_not_mem_sKept (wf : ScatterDims.WF (⟨2, ![R, C]⟩ : Shape) (⟨2, ![R, 2]⟩ : Shape) (⟨1, ![R]⟩ : Shape) [] [0, 1] [0, 1] 1) (a : Fin 2) : a ∉ (sDims wf).sKept := by
  intro h
  have h' : a ∉ ([0, 1] : List (Fin 2)) := by
    simpa [ScatterDims.sKept, Shape.kept, List.mem_filter, List.mem_finRange] using h
  match a with
  | ⟨0, _⟩ => exact h' List.mem_cons_self
  | ⟨1, _⟩ => exact h' (List.mem_cons_of_mem _ List.mem_cons_self)

/-- … and every window coordinate is 0. -/
private theorem s_window (wf : ScatterDims.WF (⟨2, ![R, C]⟩ : Shape) (⟨2, ![R, 2]⟩ : Shape) (⟨1, ![R]⟩ : Shape) [] [0, 1] [0, 1] 1) (j : (⟨1, ![R]⟩ : Shape).Idx) (a : Fin 2) : (sDims wf).window j a = 0 := by
  unfold ScatterDims.window
  rw [dif_neg (s_not_mem_sKept wf a)]

/-- Update j lands at (j 0, col (j 0)): inside the operand, so it is not dropped. -/
private theorem s_resultIdx (wf : ScatterDims.WF (⟨2, ![R, C]⟩ : Shape) (⟨2, ![R, 2]⟩ : Shape) (⟨1, ![R]⟩ : Shape) [] [0, 1] [0, 1] 1)
    (idx : IVec (⟨2, ![R, 2]⟩ : Shape) w) (col : Fin R → Fin C)
    (h0 : ∀ r : Fin R, (idx (ix2 r 0)).toInt = (r.val : ℤ)) (h1 : ∀ r : Fin R, (idx (ix2 r 1)).toInt = ((col r).val : ℤ))
    (j : (⟨1, ![R]⟩ : Shape).Idx) :
    (sDims wf).resultIdx? j idx = some (ix2 (row j) (col (row j))) := by
  have hs0 := s_start0 wf idx h0 j
  have hs1 := s_start1 wf idx col h1 j
  have hw0 := s_window wf j (0 : Fin 2)
  have hw1 := s_window wf j (1 : Fin 2)
  have hr : (row j).val < R := (row j).isLt
  have hc : (col (row j)).val < C := (col (row j)).isLt
  have h : ∀ a, 0 ≤ (sDims wf).start j idx a + (sDims wf).window j a ∧
      (sDims wf).start j idx a + (sDims wf).window j a < (⟨2, ![R, C]⟩ : Shape).size a := by
    intro a
    match a with
    | ⟨0, _⟩ =>
      show 0 ≤ (sDims wf).start j idx (0 : Fin 2) + ((sDims wf).window j (0 : Fin 2) : ℤ) ∧
        (sDims wf).start j idx (0 : Fin 2) + ((sDims wf).window j (0 : Fin 2) : ℤ) < ((R : ℕ) : ℤ)
      rw [hs0, hw0]; omega
    | ⟨1, _⟩ =>
      show 0 ≤ (sDims wf).start j idx (1 : Fin 2) + ((sDims wf).window j (1 : Fin 2) : ℤ) ∧
        (sDims wf).start j idx (1 : Fin 2) + ((sDims wf).window j (1 : Fin 2) : ℤ) < ((C : ℕ) : ℤ)
      rw [hs1, hw1]; omega
  unfold ScatterDims.resultIdx?
  rw [dif_pos h]
  congr 1
  funext a
  refine Fin.ext ?_
  match a with
  | ⟨0, _⟩ =>
    show ((sDims wf).start j idx (0 : Fin 2) + ((sDims wf).window j (0 : Fin 2) : ℤ)).toNat = (row j).val
    rw [hs0, hw0]; omega
  | ⟨1, _⟩ =>
    show ((sDims wf).start j idx (1 : Fin 2) + ((sDims wf).window j (1 : Fin 2) : ℤ)).toNat = (col (row j)).val
    rw [hs1, hw1]; omega

/-! ### A left fold of single-element writes at pairwise distinct targets -/

/-- A position no write targets keeps its value. -/
private theorem foldl_set_of_ne {ι κ β : Type} [DecidableEq κ] (tgt : ι → κ) (u : ι → β) (k₀ : κ) :
    ∀ (l : List ι) (x : κ → β), (∀ n ∈ l, k₀ ≠ tgt n) →
      (l.foldl (fun r n => fun k => if k = tgt n then u n else r k) x) k₀ = x k₀ := by
  intro l
  induction l with
  | nil => intro x _; rfl
  | cons n l ih =>
    intro x h
    rw [List.foldl_cons, ih _ (fun m hm => h m (List.mem_cons_of_mem _ hm))]
    exact if_neg (h n List.mem_cons_self)

/-- The target of a write in the list (no repeats, distinct targets) holds that write's value. -/
private theorem foldl_set_of_mem {ι κ β : Type} [DecidableEq κ] (tgt : ι → κ) (htgt : Function.Injective tgt) (u : ι → β)
    (n₀ : ι) :
    ∀ (l : List ι) (x : κ → β), l.Nodup → n₀ ∈ l →
      (l.foldl (fun r n => fun k => if k = tgt n then u n else r k) x) (tgt n₀) = u n₀ := by
  intro l
  induction l with
  | nil => intro x _ h; exact absurd h List.not_mem_nil
  | cons n l ih =>
    intro x hnd hmem
    rw [List.foldl_cons]
    rcases List.mem_cons.mp hmem with h | hm
    · subst h
      rw [foldl_set_of_ne tgt u (tgt n₀) l _ (fun m hm hEq => (List.nodup_cons.mp hnd).1 (htgt hEq ▸ hm))]
      exact if_pos rfl
    · exact ih _ (List.nodup_cons.mp hnd).2 hm

/-- The element the n-th update (in row-major order) writes: (row, col row) for its row. -/
private abbrev sTgt (col : Fin R → Fin C) (n : Fin (⟨1, ![R]⟩ : Shape).numel) : (⟨2, ![R, C]⟩ : Shape).Idx :=
  ix2 (row ((⟨1, ![R]⟩ : Shape).rowMajor.symm n)) (col (row ((⟨1, ![R]⟩ : Shape).rowMajor.symm n)))

/-- Distinct updates write distinct elements: their rows differ. -/
private theorem sTgt_injective (col : Fin R → Fin C) : Function.Injective (sTgt col) := by
  intro n m h
  have h0 : row ((⟨1, ![R]⟩ : Shape).rowMajor.symm n) = row ((⟨1, ![R]⟩ : Shape).rowMajor.symm m) := congrFun h (0 : Fin 2)
  have hj : (⟨1, ![R]⟩ : Shape).rowMajor.symm n = (⟨1, ![R]⟩ : Shape).rowMajor.symm m :=
    (eq_ix1 _).trans ((congrArg ix1 h0).trans (eq_ix1 _).symm)
  exact (⟨1, ![R]⟩ : Shape).rowMajor.symm.injective hj

/-- The scatter of one element per row (the body returns the update), read at (r, c): the r-th update at the
    scattered column, the operand elsewhere. -/
theorem scatter_rows_apply
    (wf : ScatterDims.WF (⟨2, ![R, C]⟩ : Shape) (⟨2, ![R, 2]⟩ : Shape) (⟨1, ![R]⟩ : Shape) [] [0, 1] [0, 1] 1)
    (x : (⟨2, ![R, C]⟩ : Shape).Idx → α) (idx : IVec (⟨2, ![R, 2]⟩ : Shape) w) (upd : (⟨1, ![R]⟩ : Shape).Idx → α)
    (col : Fin R → Fin C)
    (h0 : ∀ r : Fin R, (idx (ix2 r 0)).toInt = (r.val : ℤ)) (h1 : ∀ r : Fin R, (idx (ix2 r 1)).toInt = ((col r).val : ℤ))
    (r : Fin R) (c : Fin C) :
    Host.scatter ({ updateWindowDims := [], insertedWindowDims := [0, 1], scatterDimsToOperandDims := [0, 1], indexVectorDim := 1, wf := wf } :
          ScatterDims (⟨2, ![R, C]⟩ : Shape) (⟨2, ![R, 2]⟩ : Shape) (⟨1, ![R]⟩ : Shape)) (fun _ b => b) x idx upd (ix2 r c)
      = if c = col r then upd (ix1 r) else x (ix2 r c) := by
  show Host.scatter (sDims wf) (fun _ b => b) x idx upd (ix2 r c) = _
  unfold Host.scatter
  simp only [s_resultIdx wf idx col h0 h1]
  show ((List.finRange (⟨1, ![R]⟩ : Shape).numel).foldl
      (fun acc n => fun k => if k = sTgt col n then upd ((⟨1, ![R]⟩ : Shape).rowMajor.symm n) else acc k) x) (ix2 r c) = _
  by_cases hc : c = col r
  · rw [if_pos hc]
    have key := foldl_set_of_mem (sTgt col) (sTgt_injective col) (fun n => upd ((⟨1, ![R]⟩ : Shape).rowMajor.symm n))
      ((⟨1, ![R]⟩ : Shape).rowMajor (ix1 r)) (List.finRange _) x (List.nodup_finRange _) (List.mem_finRange _)
    have ht : sTgt col ((⟨1, ![R]⟩ : Shape).rowMajor (ix1 r)) = ix2 r c := by
      show ix2 (row ((⟨1, ![R]⟩ : Shape).rowMajor.symm ((⟨1, ![R]⟩ : Shape).rowMajor (ix1 r))))
        (col (row ((⟨1, ![R]⟩ : Shape).rowMajor.symm ((⟨1, ![R]⟩ : Shape).rowMajor (ix1 r))))) = ix2 r c
      rw [Equiv.symm_apply_apply, hc]
      rfl
    rw [ht] at key
    rw [key]
    show upd ((⟨1, ![R]⟩ : Shape).rowMajor.symm ((⟨1, ![R]⟩ : Shape).rowMajor (ix1 r))) = upd (ix1 r)
    rw [Equiv.symm_apply_apply]
  · rw [if_neg hc]
    refine foldl_set_of_ne (sTgt col) _ (ix2 r c) _ x ?_
    intro n _ hEq
    have e0 : r = row ((⟨1, ![R]⟩ : Shape).rowMajor.symm n) := congrFun hEq (0 : Fin 2)
    have e1 : c = col (row ((⟨1, ![R]⟩ : Shape).rowMajor.symm n)) := congrFun hEq (1 : Fin 2)
    exact hc (e1.trans (congrArg col e0.symm))

end Cert.Lib
-- ==== Proof.Consts.lean ====
/-
  The float constants the two programs spell, as the extended reals their patterns denote: −∞, +∞, 0, 4096, and the two
  margin constants (the floats nearest 1.1 and 1.05), which are finite, the second one not zero.
-/
import Idealize.ShloMosaic.PureOps.Ideal

noncomputable section

namespace Cert.Consts

open Idealize.ShloMosaic

theorem ofBits_negInf : Ideal.ofBits .f32 0xFF800000#32 = (⊥ : EReal) := by
  simp [Ideal.ofBits, Ideal.ieee]

theorem ofBits_posInf : Ideal.ofBits .f32 0x7F800000#32 = (⊤ : EReal) := by
  simp [Ideal.ofBits, Ideal.ieee]

theorem ofBits_zero : Ideal.ofBits .f32 0x00000000#32 = (0 : EReal) := by
  simp [Ideal.ofBits, Ideal.ieee]

theorem ofBits_4096 : Ideal.ofBits .f32 0x45800000#32 = ((4096 : ℝ) : EReal) := by
  simp [Ideal.ofBits, Ideal.ieee, -EReal.coe_mul]; norm_num

/-- The float nearest 1.1 is a finite number. -/
theorem ofBits_c11_eq : Ideal.ofBits .f32 0x3F8CCCCD#32 = ((9227469 / 8388608 : ℝ) : EReal) := by
  simp [Ideal.ofBits, Ideal.ieee, -EReal.coe_mul]; norm_num

theorem ofBits_c11 : ∃ r : ℝ, Ideal.ofBits .f32 0x3F8CCCCD#32 = (r : EReal) := ⟨_, ofBits_c11_eq⟩

/-- The float nearest 1.05 is a finite number other than zero. -/
theorem ofBits_c105_eq : Ideal.ofBits .f32 0x3F866666#32 = ((8808038 / 8388608 : ℝ) : EReal) := by
  simp [Ideal.ofBits, Ideal.ieee, -EReal.coe_mul]; norm_num

theorem ofBits_c105 : ∃ r : ℝ, r ≠ 0 ∧ Ideal.ofBits .f32 0x3F866666#32 = (r : EReal) :=
  ⟨_, by norm_num, ofBits_c105_eq⟩

end Cert.Consts

end
-- ==== Proof.AdjLogit.lean ====
/-
  The margin-adjusted label logit, as both programs compute it on the host before anything else:
  l = x[r, label r] (one gathered element per row), s = l · 1.1, and v = s / 1.05 where l > 0, s · 1.05 elsewhere
  (1.1 and 1.05 the nearest floats). For labels in [0, 50257) the gathered element is x at (r, label r), and for
  finite logits v is finite.
-/
import proofs.«407891_j32615981645893_3_alg».proof.Proof.RowIndex
import proofs.«407891_j32615981645893_3_alg».proof.Proof.LibScatterRows
import proofs.«407891_j32615981645893_3_alg».proof.Proof.Consts
import Idealize.ShloMosaic.PureOps.Ideal.Laws
import Idealize.ShloMosaic.Lib.Pipeline.Value

noncomputable section

namespace Cert.Adj

open Idealize.ShloMosaic Idealize.ShloMosaic.ValueIdx

abbrev SX : Shape := ⟨2, ![4096, 50257]⟩
abbrev SI : Shape := ⟨2, ![4096, 2]⟩
abbrev SC : Shape := ⟨2, ![4096, 1]⟩
abbrev SL : Shape := ⟨1, ![4096]⟩
abbrev S0 : Shape := ⟨0, ![]⟩

variable {F : FTy → Type} [FloatOps F]

/-- The dimension numbers of "one element per row". -/
abbrev rowGather (wf : GatherDims.WF SX SI SL [] [0, 1] [] [0, 1] [] 1 ![1, 1]) : GatherDims SX SI SL :=
  { offsetDims := [], collapsedSliceDims := [0, 1], operandBatchingDims := [], startIndicesBatchingDims := [], startIndexMap := [0, 1], indexVectorDim := 1, sliceSizes := ![1, 1], wf := wf }

/-- l: the label's logit of every row. -/
def labelLogit (hb : S0.BroadcastsInDim SL (![] : Fin 0 → Fin 1)) (hc : SL.BroadcastsInDim SC (![0] : Fin 1 → Fin 2))
    (hcat : Shape.Concatenates [SC, SC] SI 1) (wf : GatherDims.WF SX SI SL [] [0, 1] [] [0, 1] [] 1 ![1, 1])
    (x : FVec F SX .f32) (lab : IVec SL 32) : FVec F SL .f32 :=
  Host.gather (rowGather wf) x (Cert.Lib.startIdx hb hc hcat lab)

/-- v from l: scaled by 1.1, then divided by 1.05 where l is positive and multiplied by 1.05 elsewhere. -/
def adjust (hb : S0.BroadcastsInDim SL (![] : Fin 0 → Fin 1)) (l : FVec F SL .f32) : FVec F SL .f32 :=
  select (cmpf .ogt l (broadcastInDim SL ![] hb (constant S0 .f32 0x00000000#32)))
    (Host.divf (mulf l (broadcastInDim SL ![] hb (constant S0 .f32 0x3F8CCCCD#32))) (broadcastInDim SL ![] hb (constant S0 .f32 0x3F866666#32)))
    (mulf (mulf l (broadcastInDim SL ![] hb (constant S0 .f32 0x3F8CCCCD#32))) (broadcastInDim SL ![] hb (constant S0 .f32 0x3F866666#32)))

/-- The adjusted label logit of every row. -/
def adjLogit (hb : S0.BroadcastsInDim SL (![] : Fin 0 → Fin 1)) (hc : SL.BroadcastsInDim SC (![0] : Fin 1 → Fin 2))
    (hcat : Shape.Concatenates [SC, SC] SI 1) (wf : GatherDims.WF SX SI SL [] [0, 1] [] [0, 1] [] 1 ![1, 1])
    (x : FVec F SX .f32) (lab : IVec SL 32) : FVec F SL .f32 :=
  adjust hb (labelLogit hb hc hcat wf x lab)

/-- A word whose signed reading is not negative reads the same unsigned. -/
theorem toNat_eq_toInt (b : BitVec 32) (h0 : 0 ≤ b.toInt) : (b.toNat : ℤ) = b.toInt := by
  have hb := b.isLt
  rw [BitVec.toInt_eq_toNat_cond] at h0 ⊢
  split_ifs at h0 ⊢ <;> omega

/-- The class of row r: its label word read as a number, which lies below 50257 for labels in range. -/
def colOf (lab : IVec SL 32) (hlab : ∀ i, 0 ≤ (lab i).toInt ∧ (lab i).toInt < 50257) (r : Fin 4096) : Fin 50257 :=
  ⟨(lab (ix1 r)).toNat, by
    have h := toNat_eq_toInt _ (hlab (ix1 r)).1
    have h2 := (hlab (ix1 r)).2
    omega⟩

theorem colOf_val (lab : IVec SL 32) (hlab : ∀ i, 0 ≤ (lab i).toInt ∧ (lab i).toInt < 50257) (r : Fin 4096) :
    (lab (ix1 r)).toNat = (colOf lab hlab r).val := rfl

/-- The start indices hold (r, class of row r) in row r. -/
theorem startIdx_facts (hb : S0.BroadcastsInDim SL (![] : Fin 0 → Fin 1)) (hc : SL.BroadcastsInDim SC (![0] : Fin 1 → Fin 2))
    (hcat : Shape.Concatenates [SC, SC] SI 1) (lab : IVec SL 32) (hlab : ∀ i, 0 ≤ (lab i).toInt ∧ (lab i).toInt < 50257) :
    (∀ r : Fin 4096, (Cert.Lib.startIdx hb hc hcat lab (ix2 r (0 : Fin 2))).toInt = (r.val : ℤ))
      ∧ (∀ r : Fin 4096, (Cert.Lib.startIdx hb hc hcat lab (ix2 r (1 : Fin 2))).toInt = ((colOf lab hlab r).val : ℤ)) :=
  ⟨fun r => Cert.Lib.startIdx_row hb hc hcat lab r, fun r => by
    rw [Cert.Lib.startIdx_col hb hc hcat lab r (hlab (ix1 r)).1]
    exact (toNat_eq_toInt _ (hlab (ix1 r)).1).symm⟩

/-- For labels in range the label's logit of row r is x at (r, class of row r). -/
theorem labelLogit_apply (hb : S0.BroadcastsInDim SL (![] : Fin 0 → Fin 1)) (hc : SL.BroadcastsInDim SC (![0] : Fin 1 → Fin 2))
    (hcat : Shape.Concatenates [SC, SC] SI 1) (wf : GatherDims.WF SX SI SL [] [0, 1] [] [0, 1] [] 1 ![1, 1])
    (x : FVec F SX .f32) (lab : IVec SL 32) (hlab : ∀ i, 0 ≤ (lab i).toInt ∧ (lab i).toInt < 50257) (r : Fin 4096) :
    labelLogit hb hc hcat wf x lab (ix1 r) = x (ix2 r (colOf lab hlab r)) := by
  unfold labelLogit
  exact Cert.Lib.gather_rows_apply wf x _ (colOf lab hlab) (startIdx_facts hb hc hcat lab hlab).1 (startIdx_facts hb hc hcat lab hlab).2 r

/-- A scalar constant spread over the rows reads the constant in every row. -/
theorem bconst_apply (hb : S0.BroadcastsInDim SL (![] : Fin 0 → Fin 1)) (b : BitVec 32) (i : SL.Idx) :
    broadcastInDim SL ![] hb (constant (F := Ideal) S0 .f32 b) i = Ideal.ofBits .f32 b :=
  broadcastInDim_apply _ hb _ i (fun a => a.elim0) (fun a => a.elim0)

/-- v is finite where l is. -/
theorem adjust_real (hb : S0.BroadcastsInDim SL (![] : Fin 0 → Fin 1)) (l : FVec Ideal SL .f32) (i : SL.Idx)
    (hl : ∃ r : ℝ, l i = (r : EReal)) : ∃ r : ℝ, adjust hb l i = (r : EReal) := by
  obtain ⟨lr, hlr⟩ := hl
  obtain ⟨a, ha⟩ := Cert.Consts.ofBits_c11
  obtain ⟨d, hd0, hd⟩ := Cert.Consts.ofBits_c105
  have e : adjust hb l i = Scalar.select (FloatOps.cmpf .ogt (l i) (Ideal.ofBits .f32 0x00000000#32))
      (Ideal.div (l i * Ideal.ofBits .f32 0x3F8CCCCD#32) (Ideal.ofBits .f32 0x3F866666#32))
      ((l i * Ideal.ofBits .f32 0x3F8CCCCD#32) * Ideal.ofBits .f32 0x3F866666#32) := by
    unfold adjust
    rw [select_apply]
    show Scalar.select (FloatOps.cmpf .ogt (l i) (broadcastInDim SL ![] hb (constant (F := Ideal) S0 .f32 0x00000000#32) i))
      (Ideal.div (l i * broadcastInDim SL ![] hb (constant (F := Ideal) S0 .f32 0x3F8CCCCD#32) i) (broadcastInDim SL ![] hb (constant (F := Ideal) S0 .f32 0x3F866666#32) i))
      ((l i * broadcastInDim SL ![] hb (constant (F := Ideal) S0 .f32 0x3F8CCCCD#32) i) * broadcastInDim SL ![] hb (constant (F := Ideal) S0 .f32 0x3F866666#32) i) = _
    rw [bconst_apply, bconst_apply, bconst_apply]
  rw [e, hlr, ha, hd, Ideal.div_coe hd0]
  unfold Scalar.select
  split
  · exact ⟨lr * a * (1 / d), by rw [EReal.coe_mul, EReal.coe_mul]⟩
  · exact ⟨lr * a * d, by rw [EReal.coe_mul, EReal.coe_mul]⟩

/-- For finite logits and labels in range the adjusted label logit of every row is finite. -/
theorem adjLogit_real (hb : S0.BroadcastsInDim SL (![] : Fin 0 → Fin 1)) (hc : SL.BroadcastsInDim SC (![0] : Fin 1 → Fin 2))
    (hcat : Shape.Concatenates [SC, SC] SI 1) (wf : GatherDims.WF SX SI SL [] [0, 1] [] [0, 1] [] 1 ![1, 1])
    (x : FVec Ideal SX .f32) (hx : ∀ i, ∃ r : ℝ, x i = (r : EReal)) (lab : IVec SL 32)
    (hlab : ∀ i, 0 ≤ (lab i).toInt ∧ (lab i).toInt < 50257) (r : Fin 4096) :
    ∃ q : ℝ, adjLogit hb hc hcat wf x lab (ix1 r) = (q : EReal) := by
  unfold adjLogit
  refine adjust_real hb _ _ ?_
  rw [labelLogit_apply hb hc hcat wf x lab hlab r]
  exact hx _

end Cert.Adj

end
-- ==== Proof.KernelHost.lean ====
/-
  What the region finds in its three input arrays: the logits as launched, the labels as a column, and the adjusted
  label logits (computed by the host operations before the region) as a column.
-/
import proofs.«407891_j32615981645893_3_alg».proof.Proof.Gen.KernelIdeal.Frame
import proofs.«407891_j32615981645893_3_alg».proof.Proof.AdjLogit
import Idealize.ShloMosaic.Lib.StableHlo.Run

set_option maxRecDepth 16384

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F] (m : (ℓ : Loc nD τ sig) → Buf (Elt F) ℓ)

/-- The label column is the labels, reshaped. -/
theorem V_labels (c : Dev nD) :
    (V m c main_v24 : IVec S4096x1 32) = shapeCast S4096x1 (m ((c : Thread nD τ).loc main_arg1)) Gen.shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 4000000 in
/-- The adjusted-logit column is the adjusted label logits of the launched arrays, reshaped. -/
theorem V_adjusted (c : Dev nD) :
    (V m c main_v25 : FVec F S4096x1 .f32)
      = shapeCast S4096x1 (Cert.Adj.adjLogit (F := F) Gen.bcast_S_S4096 Gen.bcast_S4096_S4096x1_0 Gen.concatenates_S4096x1_S4096x1_S4096x2_d1
          Gen.gather_S4096x50257_S4096x2_S4096_n_01_n_n_01_1_11_wf (m ((c : Thread nD τ).loc main_arg0)) (m ((c : Thread nD τ).loc main_arg1)))
          Gen.shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

end Cert.KernelIdeal.HostPrefix

end
-- ==== Proof.RefRow.lean ====
/-
  The reference's value for a row. The scattered array holds, in row r, the logits with the label's entry replaced by
  the adjusted logit; its log-softmax is taken row by row; the gather picks the label's entry. So the r-th gathered
  value is `rRow` of row r of the logits, the class of row r and the adjusted logit of row r.
-/
import proofs.«407891_j32615981645893_3_alg».proof.Proof.RefRead
import proofs.«407891_j32615981645893_3_alg».proof.Proof.AdjLogit
import proofs.«407891_j32615981645893_3_alg».proof.Proof.RowSpec
import proofs.«407891_j32615981645893_3_alg».proof.Proof.LibUnitAxes
import Idealize.ShloMosaic.PureOps.Reduce

set_option maxRecDepth 131072

noncomputable section

namespace Cert.ReferenceIdeal.RefRow

open Cert.ReferenceIdeal Cert.ReferenceIdeal.Gen Cert.ReferenceIdeal.Read
open Idealize.ShloMosaic Idealize.ShloMosaic.ValueIdx Cert.Adj

/-- The reference's three start-index arrays are one array: rows beside labels, each normalised. -/
theorem v13_eq {F : FTy → Type} [FloatOps F] (lab : IVec S4096 32) :
    val_main_v13 (F := F) lab = Cert.Lib.startIdx Gen.bcast_S_S4096 Gen.bcast_S4096_S4096x1_0 Gen.concatenates_S4096x1_S4096x1_S4096x2_d1 lab := rfl
theorem v36_eq {F : FTy → Type} [FloatOps F] (lab : IVec S4096 32) :
    val_main_v36 (F := F) lab = Cert.Lib.startIdx Gen.bcast_S_S4096 Gen.bcast_S4096_S4096x1_0 Gen.concatenates_S4096x1_S4096x1_S4096x2_d1 lab := rfl
theorem v51_eq {F : FTy → Type} [FloatOps F] (lab : IVec S4096 32) :
    val_main_v51 (F := F) lab = Cert.Lib.startIdx Gen.bcast_S_S4096 Gen.bcast_S4096_S4096x1_0 Gen.concatenates_S4096x1_S4096x1_S4096x2_d1 lab := rfl

/-- The reference's adjusted label logit is the shared one. -/
theorem v23_eq {F : FTy → Type} [FloatOps F] (x : FVec F S4096x50257 .f32) (lab : IVec S4096 32) :
    val_main_v23 (F := F) x lab = adjLogit (F := F) Gen.bcast_S_S4096 Gen.bcast_S4096_S4096x1_0 Gen.concatenates_S4096x1_S4096x1_S4096x2_d1
      Gen.gather_S4096x50257_S4096x2_S4096_n_01_n_n_01_1_11_wf x lab := rfl

/-- The shapes' reduction fact, by evaluation. -/
theorem hred : S4096x50257.Reduces [1] S4096 := by decide

/-- Any array, restricted to row r through the reduction's re-inserted index, is the row as a function of the class. -/
theorem comp_lift (W : FVec Ideal S4096x50257 .f32) (r : Fin 4096) :
    (W ∘ hred.lift (ix1 r)) = fun k : Fin 50257 => W (ix2 r k) :=
  funext fun k => congrArg W (Cert.Lib.lift_row_col hred r k)

section
variable (x : FVec Ideal S4096x50257 .f32) (lab : IVec S4096 32) (hlab : ∀ i, 0 ≤ (lab i).toInt ∧ (lab i).toInt < 50257)

/-- The scattered array read at (r, c): row r of the logits with the label's entry replaced by the adjusted logit. -/
theorem v37_apply (r : Fin 4096) (c : Fin 50257) :
    val_main_v37 (F := Ideal) x lab (ix2 r c)
      = Cert.Spec.xrep (fun k => x (ix2 r k)) (colOf lab hlab r) (val_main_v23 (F := Ideal) x lab (ix1 r)) c := by
  unfold val_main_v37 Cert.Spec.xrep
  rw [v36_eq]
  exact Cert.Lib.scatter_rows_apply Gen.scatter_S4096x50257_S4096x2_S4096_n_01_01_1_wf x _ _ (colOf lab hlab)
    (startIdx_facts _ _ _ lab hlab).1 (startIdx_facts _ _ _ lab hlab).2 r c

/-- Row r of the scattered array, as a function of the class. -/
theorem v37_row (r : Fin 4096) :
    (fun k : Fin 50257 => val_main_v37 (F := Ideal) x lab (ix2 r k))
      = Cert.Spec.xrep (fun k => x (ix2 r k)) (colOf lab hlab r) (val_main_v23 (F := Ideal) x lab (ix1 r)) :=
  funext fun k => v37_apply x lab hlab r k

/-- The log-softmax's shift for row r: the maximum of the replaced row. -/
theorem shift_apply (r : Fin 4096) :
    val_main_call1_v2 (F := Ideal) x lab (ix1 r)
      = Cert.Spec.rMax (fun k => x (ix2 r k)) (colOf lab hlab r) (val_main_v23 (F := Ideal) x lab (ix1 r)) := by
  rw [val_main_call1_v2_apply, val_main_call1_v1_apply, val_main_call1_cst_0_apply]
  unfold val_main_call1_v0 Cert.Spec.rMax
  rw [Host.reduce_eq_fold_single FloatOps.maximumf _ _ Gen.reducesTo_S4096x50257_S4096_d1 hred Gen.h_S_]
  rw [comp_lift, v37_row x lab hlab r]
  rfl

/-- The shifted replaced row. -/
theorem v5_apply (r : Fin 4096) (c : Fin 50257) :
    val_main_call1_v5 (F := Ideal) x lab (ix2 r c)
      = Cert.Spec.xrep (fun k => x (ix2 r k)) (colOf lab hlab r) (val_main_v23 (F := Ideal) x lab (ix1 r)) c
        - Cert.Spec.rMax (fun k => x (ix2 r k)) (colOf lab hlab r) (val_main_v23 (F := Ideal) x lab (ix1 r)) := by
  rw [val_main_call1_v5_apply, val_main_call1_v4_apply, val_main_call1_v3_apply, v37_apply x lab hlab]
  have hi : idx_main_call1_v3 (idx_main_call1_v4 (ix2 r c)) = ix1 r := by
    funext a; match a with | ⟨0, _⟩ => rfl
  rw [hi, shift_apply x lab hlab]
  rfl

/-- The row's sum of exponentials, from 0. -/
theorem v7_apply (r : Fin 4096) :
    val_main_call1_v7 (F := Ideal) x lab (ix1 r)
      = Ideal.ofBits .f32 0x00000000#32 + ∑ k : Fin 50257, Ideal.exp
          (Cert.Spec.xrep (fun k => x (ix2 r k)) (colOf lab hlab r) (val_main_v23 (F := Ideal) x lab (ix1 r)) k
            - Cert.Spec.rMax (fun k => x (ix2 r k)) (colOf lab hlab r) (val_main_v23 (F := Ideal) x lab (ix1 r))) := by
  rw [val_main_call1_v7_apply, val_main_call1_cst_1_apply]
  refine congrArg (_ + ·) (Finset.sum_congr rfl fun k _ => ?_)
  rw [val_main_call1_v6_apply]
  have hi : idx_main_call1_v7 (ix1 r) k = ix2 r k := by
    funext a; match a with | ⟨0, _⟩ => rfl | ⟨1, _⟩ => rfl
  rw [hi, v5_apply x lab hlab]
  rfl

/-- THE ROW: the r-th gathered log-probability is `rRow` of row r. -/
theorem v52_apply (r : Fin 4096) :
    val_main_v52 (F := Ideal) x lab (ix1 r)
      = Cert.Spec.rRow (fun k => x (ix2 r k)) (colOf lab hlab r) (val_main_v23 (F := Ideal) x lab (ix1 r)) := by
  unfold val_main_v52
  rw [v51_eq]
  have hg := Cert.Lib.gather_rows_apply Gen.gather_S4096x50257_S4096x2_S4096_n_01_n_n_01_1_11_wf (val_main_v38 (F := Ideal) x lab) _ (colOf lab hlab)
    (startIdx_facts Gen.bcast_S_S4096 Gen.bcast_S4096_S4096x1_0 Gen.concatenates_S4096x1_S4096x1_S4096x2_d1 lab hlab).1
    (startIdx_facts Gen.bcast_S_S4096 Gen.bcast_S4096_S4096x1_0 Gen.concatenates_S4096x1_S4096x1_S4096x2_d1 lab hlab).2 r
  refine hg.trans ?_
  rw [val_main_v38_apply, val_main_call1_v10_apply, val_main_call1_v9_apply, val_main_call1_v8_apply, v5_apply x lab hlab]
  have hi : idx_main_call1_v8 (idx_main_call1_v10 (ix2 r (colOf lab hlab r))) = ix1 r := by
    funext a; match a with | ⟨0, _⟩ => rfl
  rw [hi, v7_apply x lab hlab]
  unfold Cert.Spec.rRow Cert.Spec.xrep
  rw [if_pos rfl]
  rfl

end

end Cert.ReferenceIdeal.RefRow

end
-- ==== Proof.LibLseShift.lean ====
/-
  Log-sum-exp is invariant under a finite shift of the exponents, on the extended reals:
  for finite x, v and any finite shifts m, m',
    (v − m) − log(Σ_{c≠j} exp(x_c − m) + exp(v − m)) = (v − m') − log(0 + Σ_c exp(x'_c − m')),
  where x' is x with entry j replaced by v. Both sides are v − log(Σ_{c≠j} exp x_c + exp v).
-/
import Idealize.ShloMosaic.PureOps.Ideal

namespace Cert.Lib

open Idealize.ShloMosaic

/-- The coercion ℝ → [−∞, +∞] is monotone, so it commutes with max. -/
private theorem coe_max_coe (a b : ℝ) : ((max a b : ℝ) : EReal) = max (a : EReal) (b : EReal) :=
  EReal.coe_strictMono.monotone.map_max

/-- The maximum of finitely many finite numbers taken from −∞, joined with one more finite number, is finite. -/
theorem max_fold_coe_max_coe {ι : Type*} (s : Finset ι) (x : ι → ℝ) (v : ℝ) :
    ∃ m : ℝ, max (s.fold max (⊥ : EReal) (fun c => (x c : EReal))) (v : EReal) = (m : EReal) := by
  classical
  induction s using Finset.induction_on generalizing v with
  | empty => exact ⟨v, by rw [Finset.fold_empty, max_eq_right bot_le]⟩
  | insert a s ha ih =>
    -- max (max (x a) F) v = max F (max (x a) v), and max (x a) v is again a real.
    obtain ⟨m, hm⟩ := ih (max (x a) v)
    refine ⟨m, ?_⟩
    rw [Finset.fold_insert ha, ← hm, coe_max_coe, max_assoc, max_left_comm]

/-- The same when every entry of the row is only KNOWN to be finite. -/
theorem max_fold_max_real {ι : Type*} (s : Finset ι) (x : ι → EReal) (hx : ∀ c, ∃ r : ℝ, x c = (r : EReal)) (v : ℝ) :
    ∃ m : ℝ, max (s.fold max (⊥ : EReal) x) (v : EReal) = (m : EReal) := by
  choose f hf using hx
  have hxf : x = fun c => (f c : EReal) := funext hf
  rw [hxf]
  exact max_fold_coe_max_coe s f v

/-- A finite sum of coerced reals is the coercion of the real sum. -/
private theorem coe_finset_sum {ι : Type*} (s : Finset ι) (f : ι → ℝ) :
    (∑ c ∈ s, ((f c : ℝ) : EReal)) = ((∑ c ∈ s, f c : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The common denominator Σ_{c≠j} exp x_c + exp v is positive. -/
private theorem denom_pos {ι : Type*} [Fintype ι] [DecidableEq ι] (x : ι → ℝ) (j : ι) (v : ℝ) :
    0 < (∑ c : ι, if c = j then (0 : ℝ) else Real.exp (x c)) + Real.exp v := by
  refine add_pos_of_nonneg_of_pos (Finset.sum_nonneg (fun c _ => ?_)) (Real.exp_pos v)
  split_ifs
  · exact le_refl 0
  · exact (Real.exp_pos _).le

/-- In ℝ: shifting every exponent of the left form by m multiplies the sum by exp(−m). -/
private theorem real_left {ι : Type*} [Fintype ι] [DecidableEq ι] (x : ι → ℝ) (j : ι) (v m : ℝ) :
    (∑ c : ι, if c = j then (0 : ℝ) else Real.exp (x c - m)) + Real.exp (v - m)
      = ((∑ c : ι, if c = j then (0 : ℝ) else Real.exp (x c)) + Real.exp v) * Real.exp (-m) := by
  rw [add_mul, Finset.sum_mul, ← Real.exp_add, ← sub_eq_add_neg]
  congr 1
  refine Finset.sum_congr rfl (fun c _ => ?_)
  split_ifs
  · rw [zero_mul]
  · rw [← Real.exp_add, ← sub_eq_add_neg]

/-- In ℝ: the right form, with entry j replaced by v, splits off its j-th summand, and shifting by
    m' multiplies the sum by exp(−m'). -/
private theorem real_right {ι : Type*} [Fintype ι] [DecidableEq ι] (x : ι → ℝ) (j : ι) (v m' : ℝ) :
    (∑ c : ι, Real.exp ((if c = j then v else x c) - m'))
      = ((∑ c : ι, if c = j then (0 : ℝ) else Real.exp (x c)) + Real.exp v) * Real.exp (-m') := by
  have hterm : ∀ c : ι, Real.exp ((if c = j then v else x c) - m')
      = (if c = j then (0 : ℝ) else Real.exp (x c)) * Real.exp (-m')
        + (if c = j then Real.exp v * Real.exp (-m') else 0) := by
    intro c
    split_ifs
    · rw [zero_mul, zero_add, ← Real.exp_add, ← sub_eq_add_neg]
    · rw [add_zero, ← Real.exp_add, ← sub_eq_add_neg]
  rw [Finset.sum_congr rfl (fun c _ => hterm c), Finset.sum_add_distrib, Finset.sum_ite_eq',
    if_pos (Finset.mem_univ j), add_mul, Finset.sum_mul]

/-- log (T · exp(−m)) = log T − m for T > 0. -/
private theorem log_mul_exp_neg (T m : ℝ) (hT : 0 < T) :
    Real.log (T * Real.exp (-m)) = Real.log T - m := by
  rw [Real.log_mul (ne_of_gt hT) (Real.exp_ne_zero _), Real.log_exp, sub_eq_add_neg]

/-- The left form equals v − log(Σ_{c≠j} exp x_c + exp v), whatever the finite shift m. -/
private theorem left_form {ι : Type*} [Fintype ι] [DecidableEq ι] (x : ι → ℝ) (j : ι) (v m : ℝ) :
    ((v : EReal) - (m : EReal))
        - Ideal.log ((∑ c : ι, if c = j then (0 : EReal) else Ideal.exp ((x c : EReal) - (m : EReal)))
            + Ideal.exp ((v : EReal) - (m : EReal)))
      = ((v - Real.log ((∑ c : ι, if c = j then (0 : ℝ) else Real.exp (x c)) + Real.exp v) : ℝ) : EReal) := by
  have hterm : ∀ c : ι, (if c = j then (0 : EReal) else Ideal.exp ((x c : EReal) - (m : EReal)))
      = (((if c = j then (0 : ℝ) else Real.exp (x c - m)) : ℝ) : EReal) := by
    intro c
    split_ifs
    · exact EReal.coe_zero.symm
    · rw [← EReal.coe_sub, Ideal.exp_coe]
  have hsum : (∑ c : ι, if c = j then (0 : EReal) else Ideal.exp ((x c : EReal) - (m : EReal)))
      = ((∑ c : ι, (if c = j then (0 : ℝ) else Real.exp (x c - m)) : ℝ) : EReal) := by
    rw [← coe_finset_sum]
    exact Finset.sum_congr rfl (fun c _ => hterm c)
  have hpos : 0 < ((∑ c : ι, if c = j then (0 : ℝ) else Real.exp (x c)) + Real.exp v) * Real.exp (-m) :=
    mul_pos (denom_pos x j v) (Real.exp_pos _)
  rw [hsum, ← EReal.coe_sub, Ideal.exp_coe, ← EReal.coe_add, real_left, Ideal.log_coe,
    if_neg (not_le.mpr hpos), ← EReal.coe_sub, log_mul_exp_neg _ _ (denom_pos x j v)]
  congr 1
  ring

/-- The right form equals the same value, whatever the finite shift m'. -/
private theorem right_form {ι : Type*} [Fintype ι] [DecidableEq ι] (x : ι → ℝ) (j : ι) (v m' : ℝ) :
    ((v : EReal) - (m' : EReal))
        - Ideal.log ((0 : EReal) + ∑ c : ι, Ideal.exp ((if c = j then (v : EReal) else (x c : EReal)) - (m' : EReal)))
      = ((v - Real.log ((∑ c : ι, if c = j then (0 : ℝ) else Real.exp (x c)) + Real.exp v) : ℝ) : EReal) := by
  have hterm : ∀ c : ι, Ideal.exp ((if c = j then (v : EReal) else (x c : EReal)) - (m' : EReal))
      = ((Real.exp ((if c = j then v else x c) - m') : ℝ) : EReal) := by
    intro c
    have hite : (if c = j then (v : EReal) else (x c : EReal)) = (((if c = j then v else x c) : ℝ) : EReal) := by
      split_ifs <;> rfl
    rw [hite, ← EReal.coe_sub, Ideal.exp_coe]
  have hsum : (∑ c : ι, Ideal.exp ((if c = j then (v : EReal) else (x c : EReal)) - (m' : EReal)))
      = ((∑ c : ι, Real.exp ((if c = j then v else x c) - m') : ℝ) : EReal) := by
    rw [← coe_finset_sum]
    exact Finset.sum_congr rfl (fun c _ => hterm c)
  have hpos : 0 < ((∑ c : ι, if c = j then (0 : ℝ) else Real.exp (x c)) + Real.exp v) * Real.exp (-m') :=
    mul_pos (denom_pos x j v) (Real.exp_pos _)
  rw [zero_add, hsum, ← EReal.coe_sub, real_right, Ideal.log_coe,
    if_neg (not_le.mpr hpos), ← EReal.coe_sub, log_mul_exp_neg _ _ (denom_pos x j v)]
  congr 1
  ring

/-- Shift invariance of log-sum-exp with one entry replaced. -/
theorem lse_shift {ι : Type*} [Fintype ι] [DecidableEq ι] (x : ι → ℝ) (j : ι) (v m m' : ℝ) :
    ((v : EReal) - (m : EReal))
        - Ideal.log ((∑ c : ι, if c = j then (0 : EReal) else Ideal.exp ((x c : EReal) - (m : EReal)))
            + Ideal.exp ((v : EReal) - (m : EReal)))
      = ((v : EReal) - (m' : EReal))
        - Ideal.log ((0 : EReal) + ∑ c : ι, Ideal.exp ((if c = j then (v : EReal) else (x c : EReal)) - (m' : EReal))) := by
  rw [left_form, right_form]

end Cert.Lib
-- ==== Proof.RowEq.lean ====
/-
  The two arrangements of a row's value agree when the row and the adjusted logit are finite and the label word is
  the class j: both are v − log(Σ_{c≠j} exp x_c + exp v), by the shift invariance of log-sum-exp.
-/
import proofs.«407891_j32615981645893_3_alg».proof.Proof.RowSpec
import proofs.«407891_j32615981645893_3_alg».proof.Proof.LibLseShift
import proofs.«407891_j32615981645893_3_alg».proof.Proof.Consts
import Idealize.ShloMosaic.Lib.StableHlo.Predicate
import Idealize.ShloMosaic.Lib.ValueIdx

noncomputable section

namespace Cert.Spec

open Idealize.ShloMosaic

/-- The test "class c is the label" on words: the class number as a 32-bit word equals the label word exactly at j. -/
theorem isLabel_iff (lab : BitVec 32) (j c : Fin 50257) (hlab : lab.toNat = j.val) :
    IntOp.cmpi .eq (BitVec.ofNat 32 c.val) lab = 1#1 ↔ c = j := by
  rw [StableHlo.Predicate.cmpi_eq_iff]
  have hc : c.val % 2 ^ 32 = c.val := Nat.mod_eq_of_lt (by have := c.isLt; omega)
  constructor
  · intro h
    have h2 := congrArg BitVec.toNat h
    rw [BitVec.toNat_ofNat, hlab, hc] at h2
    exact Fin.ext h2
  · rintro rfl
    apply BitVec.eq_of_toNat_eq
    rw [BitVec.toNat_ofNat, hlab, hc]

/-- The replaced row of finite numbers is a row of finite numbers. -/
theorem xrep_coe (xr : Fin 50257 → ℝ) (j : Fin 50257) (vr : ℝ) :
    xrep (fun c => (xr c : EReal)) j (vr : EReal) = fun c => (((if c = j then vr else xr c) : ℝ) : EReal) := by
  funext c
  unfold xrep
  split_ifs <;> rfl

/-- The reference's shift is a finite number: the replaced row holds v at j, so its maximum is at least v. -/
theorem rMax_real (xr : Fin 50257 → ℝ) (j : Fin 50257) (vr : ℝ) :
    ∃ Mr : ℝ, rMax (fun c => (xr c : EReal)) j (vr : EReal) = (Mr : EReal) := by
  unfold rMax
  rw [Cert.Consts.ofBits_negInf, max_eq_right bot_le, xrep_coe]
  obtain ⟨M, hM⟩ := Cert.Lib.max_fold_coe_max_coe Finset.univ (fun c => if c = j then vr else xr c) vr
  refine ⟨M, ?_⟩
  rw [← hM]
  refine (max_eq_left ?_).symm
  rw [Finset.le_fold_max]
  exact Or.inr ⟨j, Finset.mem_univ j, by rw [if_pos rfl]⟩

theorem kRow_eq_rRow (x : Fin 50257 → EReal) (hx : ∀ c, ∃ r : ℝ, x c = (r : EReal)) (lab : BitVec 32) (j : Fin 50257)
    (hlab : lab.toNat = j.val) (v : EReal) (hv : ∃ r : ℝ, v = (r : EReal)) :
    kRow x lab v = rRow x j v := by
  obtain ⟨vr, rfl⟩ := hv
  choose xr hxr using hx
  obtain rfl : x = fun c => (xr c : EReal) := funext hxr
  obtain ⟨mr, hm⟩ := Cert.Lib.max_fold_coe_max_coe Finset.univ xr vr
  obtain ⟨Mr, hM⟩ := rMax_real xr j vr
  unfold kRow rRow
  rw [hM, Cert.Consts.ofBits_negInf, hm, Cert.Consts.ofBits_zero]
  have hsel : ∀ c : Fin 50257,
      Scalar.select (IntOp.cmpi .eq (BitVec.ofNat 32 c.val) lab) (0 : EReal) (Ideal.exp ((xr c : EReal) - (mr : EReal)))
        = if c = j then (0 : EReal) else Ideal.exp ((xr c : EReal) - (mr : EReal)) := by
    intro c
    by_cases hc : c = j
    · rw [if_pos hc, (isLabel_iff lab j c hlab).2 hc]
      exact ValueIdx.select_one _ _
    · rw [if_neg hc, ValueIdx.eq_zero_of_ne_one (fun h => hc ((isLabel_iff lab j c hlab).1 h))]
      exact ValueIdx.select_zero _ _
  simp only [hsel, xrep]
  exact Cert.Lib.lse_shift xr j vr mr Mr

end Cert.Spec

end
-- ==== Proof.PreFacts.lean ====
/-
  What the precondition says of the inputs: every logit is a finite real number, and every label lies in [0, 50257).
-/
import proofs.«407891_j32615981645893_3_alg».proof.Pre_finite_inputs
import proofs.«407891_j32615981645893_3_alg».proof.Proof.Consts
import Idealize.ShloMosaic.PureOps.Ideal
import Idealize.ShloMosaic.Lib.ReduceAll

namespace Cert.PreFacts

open Idealize.ShloMosaic

variable [Cert.Pre_finite_inputs.Facts]

/-- An extended real whose absolute value max(a, −a) lies strictly below +∞ is neither infinity: it is a real number. -/
private theorem real_of_abs_lt_top (a : EReal) (ha : max a (-a) < ⊤) : ∃ r : ℝ, a = (r : EReal) := by
  induction a using EReal.rec with
  | bot => exact absurd ha (by simp)
  | top => exact absurd ha (by simp)
  | coe r => exact ⟨r, rfl⟩

/-- From the printed predicate being all ones: the logits are finite, and the labels are class indices. -/
theorem of_pre (x : FVec Ideal Cert.Pre_finite_inputs.S4096x50257 .f32) (lab : IVec Cert.Pre_finite_inputs.S4096 32)
    (h : Cert.Pre_finite_inputs.fn (F := Ideal) x lab = fun _ => 1#1) :
    (∀ i, ∃ r : ℝ, x i = (r : EReal)) ∧ (∀ i, 0 ≤ (lab i).toInt ∧ (lab i).toInt < 50257) := by
  -- The result has rank 0: one index.
  haveI : Subsingleton (Cert.Pre_finite_inputs.S_).Idx := ⟨fun a b => funext fun d => d.elim0⟩
  -- The predicate at its one index is a conjunction of three reductions by `and`, each of which is then 1.
  have h0 := congrFun h (fun a => a.elim0)
  dsimp only [Cert.Pre_finite_inputs.fn] at h0
  obtain ⟨h12, h3⟩ := IntOp.andi_eq_one.1 h0
  obtain ⟨h1, h2⟩ := IntOp.andi_eq_one.1 h12
  refine ⟨fun i => ?_, fun i => ⟨?_, ?_⟩⟩
  · -- |x i| < +∞, the compared constant being +∞.
    have e := Host.reduce_andi_all _ _ _ _ _ h1 i
    have e' : Ideal.cmp .olt (max (x i) (-(x i))) (Ideal.ofBits .f32 0x7F800000#32) = 1#1 := e
    rw [Cert.Consts.ofBits_posInf] at e'
    apply real_of_abs_lt_top
    by_contra hn
    simp [Ideal.cmp, hn] at e'
  · -- 0 ≤ lab i, read signed.
    have e := Host.reduce_andi_all _ _ _ _ _ h2 i
    have e' : IntOp.cmpi .sge (lab i) (0#32) = 1#1 := e
    have := IntOp.cmpi_sge.1 e'
    simpa using this
  · -- lab i < 50257, read signed.
    have e := Host.reduce_andi_all _ _ _ _ _ h3 i
    have e' : IntOp.cmpi .slt (lab i) (50257#32) = 1#1 := e
    have := IntOp.cmpi_slt.1 e'
    have hc : (50257#32 : BitVec 32).toInt = 50257 := by decide
    rw [hc] at this
    exact this

end Cert.PreFacts
-- ==== Proof.Bridge.lean ====
/-
  The two programs' results are one number. Both end by summing a per-row quantity over the 4096 rows, dividing by
  4096 and negating; row by row the kernel's quantity `kRow` and the reference's `rRow` agree (the shift invariance
  of log-sum-exp), for finite logits and labels in [0, 50257).
-/
import proofs.«407891_j32615981645893_3_alg».proof.Proof.KernelRun
import proofs.«407891_j32615981645893_3_alg».proof.Proof.KernelHost
import proofs.«407891_j32615981645893_3_alg».proof.Proof.RefRow
import proofs.«407891_j32615981645893_3_alg».proof.Proof.RowEq
import proofs.«407891_j32615981645893_3_alg».proof.Proof.PreFacts
import proofs.«407891_j32615981645893_3_alg».proof.Proof.Gen.Pre_finite_inputs
import Idealize.ShloMosaic.Lib.ValueIdxRank1
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Cert.Adj

/-- The adjusted label logit as the kernel's host prefix and the reference compute it: one function. -/
theorem adj_eq (x : FVec Ideal SX .f32) (lab : IVec SL 32) :
    adjLogit (F := Ideal) Cert.KernelIdeal.Gen.bcast_S_S4096 Cert.KernelIdeal.Gen.bcast_S4096_S4096x1_0
        Cert.KernelIdeal.Gen.concatenates_S4096x1_S4096x1_S4096x2_d1 Cert.KernelIdeal.Gen.gather_S4096x50257_S4096x2_S4096_n_01_n_n_01_1_11_wf x lab
      = Cert.ReferenceIdeal.Read.val_main_v23 (F := Ideal) x lab :=
  (Cert.ReferenceIdeal.RefRow.v23_eq x lab).symm

section
variable (m : (ℓ : Loc Cert.KernelIdeal.nD Cert.KernelIdeal.τ Cert.KernelIdeal.sig) → Buf (Elt Ideal) ℓ) (c : Dev Cert.KernelIdeal.nD)

/-- The launched logits and labels. -/
abbrev xin : FVec Ideal SX .f32 := m ((c.tc : Thread Cert.KernelIdeal.nD Cert.KernelIdeal.τ).loc Cert.KernelIdeal.main_arg0)
abbrev labin : IVec SL 32 := m ((c.tc : Thread Cert.KernelIdeal.nD Cert.KernelIdeal.τ).loc Cert.KernelIdeal.main_arg1)

/-- The kernel's output column at row r, in terms of the launched arrays. -/
theorem G_apply (r : Fin 4096) :
    Cert.KernelIdeal.Blocks.G m c (ix2 r (0 : Fin 1))
      = Cert.Spec.kRow (fun k => xin m c (ix2 r k)) (labin m c (ix1 r)) (Cert.ReferenceIdeal.Read.val_main_v23 (F := Ideal) (xin m c) (labin m c) (ix1 r)) := by
  unfold Cert.KernelIdeal.Blocks.G
  have hx : Cert.KernelIdeal.Blocks.xarr m c = xin m c := Cert.KernelIdeal.Gen.V_main_arg0 m c
  have hl : Cert.KernelIdeal.Blocks.labcol m c (ix2 r (0 : Fin 1)) = labin m c (ix1 r) := by
    show (Cert.KernelIdeal.Gen.V m c Cert.KernelIdeal.main_v24 : IVec Cert.KernelIdeal.S4096x1 32) (ix2 r (0 : Fin 1)) = _
    rw [Cert.KernelIdeal.HostPrefix.V_labels m c]
    exact Cert.Lib.shapeCast_a_a1_apply _ _ r 0
  have hv : Cert.KernelIdeal.Blocks.valcol m c (ix2 r (0 : Fin 1))
      = Cert.ReferenceIdeal.Read.val_main_v23 (F := Ideal) (xin m c) (labin m c) (ix1 r) := by
    show (Cert.KernelIdeal.Gen.V m c Cert.KernelIdeal.main_v25 : FVec Ideal Cert.KernelIdeal.S4096x1 .f32) (ix2 r (0 : Fin 1)) = _
    rw [Cert.KernelIdeal.HostPrefix.V_adjusted m c, ← adj_eq]
    exact Cert.Lib.shapeCast_a_a1_apply _ _ r 0
  show Cert.Spec.kRow (fun k => Cert.KernelIdeal.Blocks.xarr m c (ix2 r k)) (Cert.KernelIdeal.Blocks.labcol m c (ix2 r (0 : Fin 1)))
      (Cert.KernelIdeal.Blocks.valcol m c (ix2 r (0 : Fin 1))) = _
  rw [hl, hv, hx]

variable (hpre : Cert.Pre_finite_inputs.fn (F := Ideal) (xin m c) (labin m c) = fun _ => 1#1)
include hpre

/-- Row by row the two programs agree. -/
theorem row_eq (r : Fin 4096) :
    Cert.KernelIdeal.Blocks.G m c (ix2 r (0 : Fin 1)) = Cert.ReferenceIdeal.Read.val_main_v52 (F := Ideal) (xin m c) (labin m c) (ix1 r) := by
  obtain ⟨hx, hlab⟩ := Cert.PreFacts.of_pre (xin m c) (labin m c) hpre
  rw [G_apply, Cert.ReferenceIdeal.RefRow.v52_apply (xin m c) (labin m c) hlab r]
  refine Cert.Spec.kRow_eq_rRow _ (fun k => hx _) _ _ (colOf_val (labin m c) hlab r) _ ?_
  rw [Cert.ReferenceIdeal.RefRow.v23_eq]
  exact adjLogit_real _ _ _ _ (xin m c) hx (labin m c) hlab r

/-- THE RESULTS: the kernel program's result is the reference's last stage of the same arguments. -/
theorem result_eq :
    Cert.KernelIdeal.Run.kres m c = Cert.ReferenceIdeal.Read.val_main_v55 (F := Ideal) (xin m c) (labin m c) := by
  funext i
  rw [Cert.ReferenceIdeal.Read.val_main_v55_apply, Cert.ReferenceIdeal.Read.val_main_v54_apply, Cert.ReferenceIdeal.Read.val_main_v53_apply]
  unfold Cert.KernelIdeal.Run.kres
  show FloatOps.hostNegf (FloatOps.hostDivf
      (Host.reduceAdd (F := Ideal) (Cert.KernelIdeal.Blocks.G m c) (constant (F := Ideal) Cert.KernelIdeal.S_ .f32 0x00000000#32)
        Cert.KernelIdeal.Gen.reducesTo_S4096x1_S_d0_1 Cert.KernelIdeal.Gen.h_S_ i)
      (Ideal.ofBits .f32 0x45800000#32)) = _
  have hk : Host.reduceAdd (F := Ideal) (Cert.KernelIdeal.Blocks.G m c) (constant (F := Ideal) Cert.KernelIdeal.S_ .f32 0x00000000#32)
        Cert.KernelIdeal.Gen.reducesTo_S4096x1_S_d0_1 Cert.KernelIdeal.Gen.h_S_ i
      = Ideal.ofBits .f32 0x00000000#32 + ∑ j : Cert.KernelIdeal.S4096x1.Idx, Cert.KernelIdeal.Blocks.G m c j := by
    simp only [Host.reduceAdd, Ideal.hostReduceAdd_def]
    exact Ideal.hostReduceAdd_total Cert.KernelIdeal.Gen.reducesTo_S4096x1_S_d0_1 (fun b => b.elim0) _ _ i
  rw [hk]
  have hsum : (∑ j : Cert.KernelIdeal.S4096x1.Idx, Cert.KernelIdeal.Blocks.G m c j)
      = ∑ j : Cert.ReferenceIdeal.S4096.Idx, Cert.ReferenceIdeal.Read.val_main_v52 (F := Ideal) (xin m c) (labin m c) j := by
    rw [sum_idx2, ← Equiv.sum_comp (idxEquiv1 (n := 4096)).symm]
    refine Finset.sum_congr rfl fun r _ => ?_
    rw [Fin.sum_univ_one]
    exact row_eq m c hpre r
  rw [hsum]
  rfl

end

end Cert.Bridge

end
-- ==== Proof.RefSplit.lean ====
/-
  The reference program's host operations cut in two: the first fifty end with the scatter that replaces each row's
  label logit; the remaining thirty-eight take the log-softmax, gather the label's entry of every row and average.
  Running a list of operations after another composes.
-/
import proofs.«407891_j32615981645893_3_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running one list of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The operations up to and including the scatter, and the rest. -/
def opsA : List (HloOp τ sig (Elt F)) := (ops (F := F)).take 50
def opsB : List (HloOp τ sig (Elt F)) := (ops (F := F)).drop 50

theorem after_split (M : Valuation τ sig (Elt F)) : after (ops (F := F)) M = after opsB (after opsA M) :=
  (congrArg (fun l => after l M) (List.take_append_drop 50 (ops (F := F))).symm).trans (after_append _ _ M)

end Cert.ReferenceIdeal.Stages

end
-- ==== Proof.RefStageA.lean ====
/-
  The first stretch of the reference, read: after its fifty operations the scattered array is its stage of the
  arguments, the row numbers are still the iota, and the labels are untouched.
-/
import proofs.«407891_j32615981645893_3_alg».proof.Proof.RefSplit

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxHeartbeats 4000000 in
/-- After the first stretch the scattered array is its stage of the arguments. -/
theorem stageA_v37 (M : Valuation τ sig (Elt F)) :
    after opsA M main_v37 = val_main_v37 (F := F) (M main_arg0) (M main_arg1) := by
  simp only [opsA, ops, List.take_succ_cons, List.take_zero]
  after_results
  rfl

set_option maxHeartbeats 4000000 in
/-- The row numbers are the iota. -/
theorem stageA_v0 (M : Valuation τ sig (Elt F)) :
    after opsA M main_v0 = val_main_v0 (F := F) := by
  simp only [opsA, ops, List.take_succ_cons, List.take_zero]
  after_results_simp <;> rfl

set_option maxHeartbeats 4000000 in
/-- The labels are untouched. -/
theorem stageA_arg1 (M : Valuation τ sig (Elt F)) :
    after opsA M main_arg1 = M main_arg1 := by
  simp only [opsA, ops, List.take_succ_cons, List.take_zero]
  after_results_simp <;> rfl

end Cert.ReferenceIdeal.Stages

end
-- ==== Proof.RefStageB.lean ====
/-
  The second stretch of the reference, read over the first's results as named values: from the scattered array X,
  the row numbers I and the labels L, its thirty-eight operations compute
    −( Σ_r logSoftmax(X)[r, L_r] ) / 4096,
  the log-softmax taken row by row with the row maximum as its shift. That function of (X, I, L), at the first
  stretch's results, is the program's last stage. The stretch is read in three pieces, each over the values the piece
  before left.
-/
import proofs.«407891_j32615981645893_3_alg».proof.Proof.RefSplit

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- A row-wise shifted array: every row less its maximum (taken from −∞, and once more against −∞). -/
def shifted (X : (⟨S4096x50257, .f32⟩ : BufTy).Contents (Elt F)) : (⟨S4096x50257, .f32⟩ : BufTy).Contents (Elt F) :=
  subf X (broadcastInDim S4096x50257 ![0, 1] bcast_S4096x1_S4096x50257_0_1 (broadcastInDim S4096x1 ![0] bcast_S4096_S4096x1_0
    (maximumf (broadcastInDim S4096 ![] bcast_S_S4096 (constant S_ .f32 0xFF800000#32))
      (Host.reduce FloatOps.maximumf X (constant S_ .f32 0xFF800000#32) reducesTo_S4096x50257_S4096_d1 h_S_))))

/-- An array less the logarithm of each row's sum of exponentials. -/
def lessLogSumExp (Y : (⟨S4096x50257, .f32⟩ : BufTy).Contents (Elt F)) : (⟨S4096x50257, .f32⟩ : BufTy).Contents (Elt F) :=
  subf Y (broadcastInDim S4096x50257 ![0, 1] bcast_S4096x1_S4096x50257_0_1 (Host.log (broadcastInDim S4096x1 ![0] bcast_S4096_S4096x1_0
    (Host.reduceAdd (Host.exp Y) (constant S_ .f32 0x00000000#32) reducesTo_S4096x50257_S4096_d1 h_S_))))

/-- The start indices (row, label), each index vector normalised. -/
def startIdxOf (I L : (⟨S4096, .i32⟩ : BufTy).Contents (Elt F)) : (⟨S4096x2, .i32⟩ : BufTy).Contents (Elt F) :=
  concatenate S4096x2 1
    [⟨S4096x1, broadcastInDim S4096x1 ![0] bcast_S4096_S4096x1_0
        (select (cmpi .slt I (broadcastInDim S4096 ![] bcast_S_S4096 (constantI S_ 32 0#32)))
          (addi I (broadcastInDim S4096 ![] bcast_S_S4096 (constantI S_ 32 4096#32))) I)⟩,
     ⟨S4096x1, broadcastInDim S4096x1 ![0] bcast_S4096_S4096x1_0
        (select (cmpi .slt L (broadcastInDim S4096 ![] bcast_S_S4096 (constantI S_ 32 0#32)))
          (addi L (broadcastInDim S4096 ![] bcast_S_S4096 (constantI S_ 32 50257#32))) L)⟩]
    concatenates_S4096x1_S4096x1_S4096x2_d1

/-- Minus the mean over the rows of an array's entry at (row, label). -/
def negMeanAt (V : (⟨S4096x50257, .f32⟩ : BufTy).Contents (Elt F)) (I L : (⟨S4096, .i32⟩ : BufTy).Contents (Elt F)) :
    (⟨S_, .f32⟩ : BufTy).Contents (Elt F) :=
  Host.negf (Host.divf
    (Host.reduceAdd (Host.gather gather_S4096x50257_S4096x2_S4096_n_01_n_n_01_1_11 V (startIdxOf (F := F) I L))
      (constant S_ .f32 0x00000000#32) reducesTo_S4096_S_d0 h_S_)
    (constant S_ .f32 0x45800000#32))

/-- The second stretch's function of the three values it reads. -/
def tailFn (X : (⟨S4096x50257, .f32⟩ : BufTy).Contents (Elt F)) (I L : (⟨S4096, .i32⟩ : BufTy).Contents (Elt F)) :
    (⟨S_, .f32⟩ : BufTy).Contents (Elt F) :=
  negMeanAt (lessLogSumExp (shifted X)) I L

/-- The second stretch in three pieces: up to the shifted array (8 operations), up to the log-softmax (7), the rest (23). -/
def opsB1 : List (HloOp τ sig (Elt F)) := (opsB (F := F)).take 8
def opsB2 : List (HloOp τ sig (Elt F)) := ((opsB (F := F)).drop 8).take 7
def opsB3 : List (HloOp τ sig (Elt F)) := ((opsB (F := F)).drop 8).drop 7

theorem afterB_split (F1 : Valuation τ sig (Elt F)) :
    after (opsB (F := F)) F1 = after opsB3 (after opsB2 (after opsB1 F1)) := by
  have e1 : (opsB (F := F)) = opsB1 ++ (opsB (F := F)).drop 8 := (List.take_append_drop 8 _).symm
  have e2 : (opsB (F := F)).drop 8 = opsB2 ++ opsB3 := (List.take_append_drop 7 _).symm
  calc after (opsB (F := F)) F1 = after (opsB1 ++ (opsB (F := F)).drop 8) F1 := congrArg (fun l => after l F1) e1
    _ = after ((opsB (F := F)).drop 8) (after opsB1 F1) := after_append _ _ _
    _ = after (opsB2 ++ opsB3) (after opsB1 F1) := congrArg (fun l => after l (after opsB1 F1)) e2
    _ = after opsB3 (after opsB2 (after opsB1 F1)) := after_append _ _ _

set_option maxHeartbeats 4000000 in
/-- The first piece leaves the shifted array. -/
theorem s1_shifted (G : Valuation τ sig (Elt F)) :
    after opsB1 G main_call1_v5 = shifted (F := F) (G main_v37) := by
  simp only [opsB1, opsB, ops, List.drop_succ_cons, List.drop_zero, List.take_succ_cons, List.take_zero]
  after_results_simp
  simp only [ofBuf_toBuf]
  rfl

set_option maxHeartbeats 4000000 in
/-- It keeps the row numbers -/
theorem s1_v0 (G : Valuation τ sig (Elt F)) :
    after opsB1 G main_v0 = G main_v0 := by
  simp only [opsB1, opsB, ops, List.drop_succ_cons, List.drop_zero, List.take_succ_cons, List.take_zero]
  after_results_simp <;> rfl

set_option maxHeartbeats 4000000 in
/-- and the labels. -/
theorem s1_arg1 (G : Valuation τ sig (Elt F)) :
    after opsB1 G main_arg1 = G main_arg1 := by
  simp only [opsB1, opsB, ops, List.drop_succ_cons, List.drop_zero, List.take_succ_cons, List.take_zero]
  after_results_simp <;> rfl

set_option maxHeartbeats 4000000 in
/-- The second piece leaves the log-softmax. -/
theorem s2_lsm (G : Valuation τ sig (Elt F)) :
    after opsB2 G main_v38 = lessLogSumExp (F := F) (G main_call1_v5) := by
  simp only [opsB2, opsB, ops, List.drop_succ_cons, List.drop_zero, List.take_succ_cons, List.take_zero]
  after_results_simp
  simp only [ofBuf_toBuf]
  rfl

set_option maxHeartbeats 4000000 in
/-- It keeps the row numbers -/
theorem s2_v0 (G : Valuation τ sig (Elt F)) :
    after opsB2 G main_v0 = G main_v0 := by
  simp only [opsB2, opsB, ops, List.drop_succ_cons, List.drop_zero, List.take_succ_cons, List.take_zero]
  after_results_simp <;> rfl

set_option maxHeartbeats 4000000 in
/-- and the labels. -/
theorem s2_arg1 (G : Valuation τ sig (Elt F)) :
    after opsB2 G main_arg1 = G main_arg1 := by
  simp only [opsB2, opsB, ops, List.drop_succ_cons, List.drop_zero, List.take_succ_cons, List.take_zero]
  after_results_simp <;> rfl

set_option maxHeartbeats 4000000 in
/-- The third piece gathers the label's entries and averages. -/
theorem s3_mean (G : Valuation τ sig (Elt F)) :
    after opsB3 G main_v55 = negMeanAt (F := F) (G main_v38) (G main_v0) (G main_arg1) := by
  simp only [opsB3, opsB, ops, List.drop_succ_cons, List.drop_zero, List.take_succ_cons, List.take_zero]
  after_results_simp
  rfl

/-- The second stretch computes `tailFn` of the three values it reads. -/
theorem stageB_raw (F1 : Valuation τ sig (Elt F)) :
    after opsB F1 main_v55 = tailFn (F := F) (F1 main_v37) (F1 main_v0) (F1 main_arg1) := by
  rw [afterB_split, s3_mean, s2_lsm, s2_v0, s2_arg1, s1_shifted, s1_v0, s1_arg1]
  rfl

attribute [local irreducible] val_main_v37 in
/-- At the first stretch's results it is the program's last stage. -/
theorem tailFn_stage (x0 : (⟨S4096x50257, .f32⟩ : BufTy).Contents (Elt F)) (x1 : (⟨S4096, .i32⟩ : BufTy).Contents (Elt F)) :
    tailFn (F := F) (val_main_v37 (F := F) x0 x1) (val_main_v0 (F := F)) x1 = val_main_v55 (F := F) x0 x1 := rfl

/-- After the second stretch the result is the program's last stage, whatever valuation the first stretch left,
    given the three values the second stretch reads from it. -/
theorem stageB (F1 : Valuation τ sig (Elt F)) (x0 : (⟨S4096x50257, .f32⟩ : BufTy).Contents (Elt F)) (x1 : (⟨S4096, .i32⟩ : BufTy).Contents (Elt F))
    (h37 : F1 main_v37 = val_main_v37 (F := F) x0 x1) (h0 : F1 main_v0 = val_main_v0 (F := F)) (h1 : F1 main_arg1 = x1) :
    after opsB F1 main_v55 = val_main_v55 (F := F) x0 x1 := by
  rw [stageB_raw, h37, h0, h1]
  exact tailFn_stage x0 x1

end Cert.ReferenceIdeal.Stages

end
-- ==== Proof.RefRunStages.lean ====
/-
  The reference program's run: every weakly fair execution terminates, with the result at the program's last stage
  of the launched arguments and the arguments unchanged. The list of operations runs as one sequence; its result is
  read in the two stretches.
-/
import proofs.«407891_j32615981645893_3_alg».proof.Proof.RefStageA
import proofs.«407891_j32615981645893_3_alg».proof.Proof.RefStageB

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The result buffer after all the operations is the last stage of the arguments. -/
theorem result_eq (M : Valuation τ sig (Elt F)) :
    after (ops (F := F)) M main_v55 = val_main_v55 (F := F) (M main_arg0) (M main_arg1) := by
  rw [after_split]
  exact stageB (after opsA M) (M main_arg0) (M main_arg1) (stageA_v37 M) (stageA_v0 M) (stageA_arg1 M)

set_option maxHeartbeats 4000000 in
/-- No operation writes the logits. -/
theorem arg0_kept (M : Valuation τ sig (Elt F)) : after (ops (F := F)) M main_arg0 = M main_arg0 := by
  after_results_simp <;> rfl

set_option maxHeartbeats 4000000 in
/-- No operation writes the labels. -/
theorem arg1_kept (M : Valuation τ sig (Elt F)) : after (ops (F := F)) M main_arg1 = M main_arg1 := by
  after_results_simp <;> rfl

set_option maxHeartbeats 8000000 in
/-- THE RUN of the reference program. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = val_main_v55 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (result_eq (launchContents m c)),
      (h c main_arg0).trans (arg0_kept (launchContents m c)),
      (h c main_arg1).trans (arg1_kept (launchContents m c))⟩)
    (run_seq scopedRefs_eq scopedSems_eq defs main (fun _ => ops) main_eq (fun _ => ops_sub) m ρ)

end Cert.ReferenceIdeal.Stages

end
-- ==== Proof.lean ====
/-
  The kernel computes, per row of 50257 logits, the log-probability of the label under the margin-adjusted logits:
  with v the adjusted label logit (1.1·l divided by 1.05 where l > 0, multiplied by 1.05 elsewhere) it shifts by
  m = max(max_c x_c, v) and stores (v − m) − log(Σ_{c ≠ label} exp(x_c − m) + exp(v − m)); the host then takes minus the
  mean over the 4096 rows. The reference writes v into the label's entry of the row, takes the row's log-softmax
  (shifted by the maximum of the replaced row) and reads the label's entry, then minus the mean.
  For finite logits and labels in [0, 50257) the two row values are one number, v − log(Σ_{c ≠ label} exp x_c + exp v):
  log-sum-exp does not depend on the finite shift. Hence the two results agree on the extended reals.
  Outside the label range they differ (the reference's scatter drops an out-of-range update while the kernel's label
  test never fires), which is why the precondition bounds the labels.
-/
import proofs.«407891_j32615981645893_3_alg».proof.Defs
import proofs.«407891_j32615981645893_3_alg».proof.Proof.Gen.Kernel
import proofs.«407891_j32615981645893_3_alg».proof.Proof.Gen.Kernel.Skeleton
import proofs.«407891_j32615981645893_3_alg».proof.Proof.Gen.Kernel.Launch
import proofs.«407891_j32615981645893_3_alg».proof.Proof.Gen.Kernel.Points
import proofs.«407891_j32615981645893_3_alg».proof.Proof.Gen.Kernel.Frame
import proofs.«407891_j32615981645893_3_alg».proof.Proof.Gen.KernelIdeal
import proofs.«407891_j32615981645893_3_alg».proof.Proof.Gen.KernelIdeal.Skeleton
import proofs.«407891_j32615981645893_3_alg».proof.Proof.Gen.KernelIdeal.Launch
import proofs.«407891_j32615981645893_3_alg».proof.Proof.Gen.KernelIdeal.Points
import proofs.«407891_j32615981645893_3_alg».proof.Proof.Gen.KernelIdeal.Frame
import proofs.«407891_j32615981645893_3_alg».proof.Proof.Gen.ReferenceIdeal
import proofs.«407891_j32615981645893_3_alg».proof.Proof.Gen.Pre_finite_inputs
import proofs.«407891_j32615981645893_3_alg».proof.Proof.Bridge
import proofs.«407891_j32615981645893_3_alg».proof.Proof.RefRunStages
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- Both idealized programs end at the reference's last stage of the shared arguments. -/
theorem algebraic : Cert.algebraic_KernelIdeal_ReferenceIdeal := by
  intro m ρ m' ρ' hpre hagree
  refine ⟨fun c => Cert.KernelIdeal.Run.kres m c, Cert.KernelIdeal.Run.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact (Cert.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
